-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2x131072 : Shape := ⟨2, ![2, 131072]⟩
abbrev S131072x32 : Shape := ⟨2, ![131072, 32]⟩
abbrev S256x256 : Shape := ⟨2, ![256, 256]⟩
abbrev S256 : Shape := ⟨1, ![256]⟩
abbrev S256x128 : Shape := ⟨2, ![256, 128]⟩
abbrev S128 : Shape := ⟨1, ![128]⟩
abbrev S545x128 : Shape := ⟨2, ![545, 128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S131072x32 : S_.BroadcastsInDim S131072x32 (![] : Fin 0 → Fin S131072x32.rank)
  reducesTo_S131072x32_S_d0_1 : S131072x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S545x128 : S_.BroadcastsInDim S545x128 (![] : Fin 0 → Fin S545x128.rank)
  reducesTo_S545x128_S_d0_1 : S545x128.ReducesTo [0, 1] S_
  bcast_S_S2x131072 : S_.BroadcastsInDim S2x131072 (![] : Fin 0 → Fin S2x131072.rank)
  reducesTo_S2x131072_S_d0_1 : S2x131072.ReducesTo [0, 1] S_

variable [Facts]

def fn_part6 {F : FTy → Type} [FloatOps F] (main_arg1 : IVec S2x131072 32) (main_v98 : IVec S_ 1) (main_v100 : IVec S2x131072 1) (main_v101 : IVec S2x131072 32) : IVec S_ 1 :=
  let main_v102 : IVec S2x131072 1 := cmpi .slt main_arg1 main_v101
  let main_v103 : IVec S2x131072 1 := andi main_v100 main_v102
  let main_c_40 : IVec S_ 1 := constantI S_ 1 1#1
  let main_v104 : IVec S_ 1 := (fun x v => Host.reduce IntOp.andi x v reducesTo_S2x131072_S_d0_1 h_S_) main_v103 main_c_40
  let main_v105 : IVec S_ 1 := andi main_v98 main_v104
  main_v105

def fn_part5 {F : FTy → Type} [FloatOps F] (main_arg1 : IVec S2x131072 32) (main_arg19 : FVec F S545x128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S545x128 .f32 := Host.absf main_arg19
  let main_cst_34 : FVec F S_ .f32 := constant S_ .f32 0x7F800000#32
  let main_v90 : FVec F S545x128 .f32 := broadcastInDim S545x128 ![] bcast_S_S545x128 main_cst_34
  let main_v91 : IVec S545x128 1 := cmpf .olt main_v89 main_v90
  let main_c_35 : IVec S_ 1 := constantI S_ 1 1#1
  let main_v92 : IVec S_ 1 := (fun x v => Host.reduce IntOp.andi x v reducesTo_S545x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_c_38 : IVec S_ 32 := constantI S_ 32 4294901760#32
  let main_v99 : IVec S2x131072 32 := broadcastInDim S2x131072 ![] bcast_S_S2x131072 main_c_38
  let main_v100 : IVec S2x131072 1 := cmpi .sge main_arg1 main_v99
  let main_c_39 : IVec S_ 32 := constantI S_ 32 65536#32
  let main_v101 : IVec S2x131072 32 := broadcastInDim S2x131072 ![] bcast_S_S2x131072 main_c_39
  fn_part6 (F := F) main_arg1 main_v98 main_v100 main_v101

def fn_part4 {F : FTy → Type} [FloatOps F] (main_arg1 : IVec S2x131072 32) (main_arg15 : FVec F S256x256 .f32) (main_arg16 : FVec F S256 .f32) (main_arg17 : FVec F S256x128 .f32) (main_arg18 : FVec F S128 .f32) (main_arg19 : FVec F S545x128 .f32) (main_arg20 : FVec F S128 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x131072 32) (main_arg12 : FVec F S256 .f32) (main_arg13 : FVec F S256x128 .f32) (main_arg14 : FVec F S128 .f32) (main_arg15 : FVec F S256x256 .f32) (main_arg16 : FVec F S256 .f32) (main_arg17 : FVec F S256x128 .f32) (main_arg18 : FVec F S128 .f32) (main_arg19 : FVec F S545x128 .f32) (main_arg20 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_v63 main_v67

def fn_part2 {F : FTy → Type} [FloatOps F] (main_arg1 : IVec S2x131072 32) (main_arg8 : FVec F S256 .f32) (main_arg9 : FVec F S256x128 .f32) (main_arg10 : FVec F S128 .f32) (main_arg11 : FVec F S256x256 .f32) (main_arg12 : FVec F S256 .f32) (main_arg13 : FVec F S256x128 .f32) (main_arg14 : FVec F S128 .f32) (main_arg15 : FVec F S256x256 .f32) (main_arg16 : FVec F S256 .f32) (main_arg17 : FVec F S256x128 .f32) (main_arg18 : FVec F S128 .f32) (main_arg19 : FVec F S545x128 .f32) (main_arg20 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x131072 32) (main_arg5 : FVec F S256x128 .f32) (main_arg6 : FVec F S128 .f32) (main_arg7 : FVec F S256x256 .f32) (main_arg8 : FVec F S256 .f32) (main_arg9 : FVec F S256x128 .f32) (main_arg10 : FVec F S128 .f32) (main_arg11 : FVec F S256x256 .f32) (main_arg12 : FVec F S256 .f32) (main_arg13 : FVec F S256x128 .f32) (main_arg14 : FVec F S128 .f32) (main_arg15 : FVec F S256x256 .f32) (main_arg16 : FVec F S256 .f32) (main_arg17 : FVec F S256x128 .f32) (main_arg18 : FVec F S128 .f32) (main_arg19 : FVec F S545x128 .f32) (main_arg20 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S65536x256 .f32) (main_arg1 : IVec S2x131072 32) (main_arg2 : FVec F S131072x32 .f32) (main_arg3 : FVec F S256x256 .f32) (main_arg4 : FVec F S256 .f32) (main_arg5 : FVec F S256x128 .f32) (main_arg6 : FVec F S128 .f32) (main_arg7 : FVec F S256x256 .f32) (main_arg8 : FVec F S256 .f32) (main_arg9 : FVec F S256x128 .f32) (main_arg10 : FVec F S128 .f32) (main_arg11 : FVec F S256x256 .f32) (main_arg12 : FVec F S256 .f32) (main_arg13 : FVec F S256x128 .f32) (main_arg14 : FVec F S128 .f32) (main_arg15 : FVec F S256x256 .f32) (main_arg16 : FVec F S256 .f32) (main_arg17 : FVec F S256x128 .f32) (main_arg18 : FVec F S128 .f32) (main_arg19 : FVec F S545x128 .f32) (main_arg20 : FVec F S128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S131072x32 .f32 := Host.absf main_arg2
  let main_cst_0 : FVec F S_ .f32 := constant S_ .f32 0x7F800000#32
  let main_v5 : FVec F S131072x32 .f32 := broadcastInDim S131072x32 ![] bcast_S_S131072x32 main_cst_0
  let main_v6 : IVec S131072x32 1 := cmpf .olt main_v4 main_v5
  let main_c_1 : IVec S_ 1 := constantI S_ 1 1#1
  let main_v7 : IVec S_ 1 := (fun x v => Host.reduce IntOp.andi x v reducesTo_S131072x32_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S65536x256 : Shape := ⟨2, ![65536, 256]⟩
abbrev S2x131072 : Shape := ⟨2, ![2, 131072]⟩
abbrev S131072x32 : Shape := ⟨2, ![131072, 32]⟩
abbrev S256x256 : Shape := ⟨2, ![256, 256]⟩
abbrev S256 : Shape := ⟨1, ![256]⟩
abbrev S256x128 : Shape := ⟨2, ![256, 128]⟩
abbrev S128 : Shape := ⟨1, ![128]⟩
abbrev S545x128 : Shape := ⟨2, ![545, 128]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x256 : Shape := ⟨2, ![131072, 256]⟩
abbrev S131072x128 : Shape := ⟨2, ![131072, 128]⟩
abbrev S2048x256 : Shape := ⟨2, ![2048, 256]⟩
abbrev S2048x32 : Shape := ⟨2, ![2048, 32]⟩
abbrev S2048x128 : Shape := ⟨2, ![2048, 128]⟩
abbrev S1x256 : Shape := ⟨2, ![1, 256]⟩
abbrev S1x128 : Shape := ⟨2, ![1, 128]⟩
abbrev S2048 : Shape := ⟨1, ![2048]⟩
abbrev S2048x1 : Shape := ⟨2, ![2048, 1]⟩
abbrev S2048x545 : Shape := ⟨2, ![2048, 545]⟩

abbrev nBuf : Space → Nat
  | .hbm => 81
  | .vmem => 26
  | .smem => 0
  | _ => 0

abbrev bufTy : (tb : Table) → Fin (tcTables nBuf tb) → BufTy
  | .hbm, ⟨0, _⟩ => ⟨S65536x256, .f32⟩
  | .hbm, ⟨1, _⟩ => ⟨S2x131072, .i32⟩
  | .hbm, ⟨2, _⟩ => ⟨S131072x32, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S256x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S256x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S545x128, .f32⟩
  | .hbm, ⟨20, _⟩ => ⟨S128, .f32⟩
  | .hbm, ⟨21, _⟩ => ⟨S1x131072, .i32⟩
  | .hbm, ⟨22, _⟩ => ⟨S131072, .i32⟩
  | .hbm, ⟨23, _⟩ => ⟨S1x131072, .i32⟩
  | .hbm, ⟨24, _⟩ => ⟨S131072, .i32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S1, .i32⟩
  | .hbm, ⟨34, _⟩ => ⟨S_, .i32⟩
  | .hbm, ⟨35, _⟩ => ⟨S131072x1, .i32⟩
  | .hbm, ⟨36, _⟩ => ⟨S131072x1, .i1⟩
  | .hbm, ⟨37, _⟩ => ⟨S1x1, .i32⟩
  | .hbm, ⟨38, _⟩ => ⟨S131072x1, .i32⟩
  | .hbm, ⟨39, _⟩ => ⟨S131072x1, .i1⟩
  | .hbm, ⟨40, _⟩ => ⟨S131072x1, .i1⟩
  | .hbm, ⟨41, _⟩ => ⟨S_, .i1⟩
  | .hbm, ⟨42, _⟩ => ⟨S131072, .i1⟩
  | .hbm, ⟨43, _⟩ => ⟨S131072x256, .f32⟩
  | .hbm, ⟨44, _⟩ => ⟨S131072x256, .i1⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S_, .i32⟩
  | .hbm, ⟨49, _⟩ => ⟨S131072, .i32⟩
  | .hbm, ⟨50, _⟩ => ⟨S131072, .i1⟩
  | .hbm, ⟨51, _⟩ => ⟨S_, .i32⟩
  | .hbm, ⟨52, _⟩ => ⟨S131072, .i32⟩
  | .hbm, ⟨53, _⟩ => ⟨S131072, .i32⟩
  | .hbm, ⟨54, _⟩ => ⟨S131072, .i32⟩
  | .hbm, ⟨55, _⟩ => ⟨S131072x1, .i32⟩
  | .hbm, ⟨56, _⟩ => ⟨S1, .i32⟩
  | .hbm, ⟨57, _⟩ => ⟨S_, .i32⟩
  | .hbm, ⟨58, _⟩ => ⟨S131072x1, .i32⟩
  | .hbm, ⟨59, _⟩ => ⟨S131072x1, .i1⟩
  | .hbm, ⟨60, _⟩ => ⟨S1x1, .i32⟩
  | .hbm, ⟨61, _⟩ => ⟨S131072x1, .i32⟩
  | .hbm, ⟨62, _⟩ => ⟨S131072x1, .i1⟩
  | .hbm, ⟨63, _⟩ => ⟨S131072x1, .i1⟩
  | .hbm, ⟨64, _⟩ => ⟨S_, .i1⟩
  | .hbm, ⟨65, _⟩ => ⟨S131072, .i1⟩
  | .hbm, ⟨66, _⟩ => ⟨S131072x256, .f32⟩
  | .hbm, ⟨67, _⟩ => ⟨S131072x256, .i1⟩
  | .hbm, ⟨68, _⟩ => ⟨S_, .f32⟩
  | .hbm, ⟨69, _⟩ => ⟨S131072x256, .f32⟩
  | .hbm, ⟨70, _⟩ => ⟨S131072x256, .f32⟩
  | .hbm, ⟨71, _⟩ => ⟨S256x256, .bf16⟩
  | .hbm, ⟨72, _⟩ => ⟨S256x256, .bf16⟩
  | .hbm, ⟨73, _⟩ => ⟨S256x256, .bf16⟩
  | .hbm, ⟨74, _⟩ => ⟨S256x256, .bf16⟩
  | .hbm, ⟨75, _⟩ => ⟨S256x128, .bf16⟩
  | .hbm, ⟨76, _⟩ => ⟨S256x128, .bf16⟩
  | .hbm, ⟨77, _⟩ => ⟨S256x128, .bf16⟩
  | .hbm, ⟨78, _⟩ => ⟨S256x128, .bf16⟩
  | .hbm, ⟨79, _⟩ => ⟨S545x128, .bf16⟩
  | .hbm, ⟨80, _⟩ => ⟨S131072x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x32, .f32⟩
  | .local _ .vmem, ⟨5, _⟩ => ⟨S2048x32, .f32⟩
  | .local _ .vmem, ⟨6, _⟩ => ⟨S256x256, .bf16⟩
  | .local _ .vmem, ⟨7, _⟩ => ⟨S256, .f32⟩
  | .local _ .vmem, ⟨8, _⟩ => ⟨S256x128, .bf16⟩
  | .local _ .vmem, ⟨9, _⟩ => ⟨S128, .f32⟩
  | .local _ .vmem, ⟨10, _⟩ => ⟨S256x256, .bf16⟩
  | .local _ .vmem, ⟨11, _⟩ => ⟨S256, .f32⟩
  | .local _ .vmem, ⟨12, _⟩ => ⟨S256x128, .bf16⟩
  | .local _ .vmem, ⟨13, _⟩ => ⟨S128, .f32⟩
  | .local _ .vmem, ⟨14, _⟩ => ⟨S256x256, .bf16⟩
  | .local _ .vmem, ⟨15, _⟩ => ⟨S256, .f32⟩
  | .local _ .vmem, ⟨16, _⟩ => ⟨S256x128, .bf16⟩
  | .local _ .vmem, ⟨17, _⟩ => ⟨S128, .f32⟩
  | .local _ .vmem, ⟨18, _⟩ => ⟨S256x256, .bf16⟩
  | .local _ .vmem, ⟨19, _⟩ => ⟨S256, .f32⟩
  | .local _ .vmem, ⟨20, _⟩ => ⟨S256x128, .bf16⟩
  | .local _ .vmem, ⟨21, _⟩ => ⟨S128, .f32⟩
  | .local _ .vmem, ⟨22, _⟩ => ⟨S545x128, .bf16⟩
  | .local _ .vmem, ⟨23, _⟩ => ⟨S128, .f32⟩
  | .local _ .vmem, ⟨24, _⟩ => ⟨S2048x128, .f32⟩
  | .local _ .vmem, ⟨25, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S545x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x256_0 : S131072.BroadcastsInDim S131072x256 (![0] : Fin 1 → Fin S131072x256.rank)
  bcast_S_S131072x256 : S_.BroadcastsInDim S131072x256 (![] : Fin 0 → Fin S131072x256.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x32_S2048x32_0_0 : ∀ a, (![0, 0] : Fin 2 → Nat) a + S2048x32.size a ≤ S2048x32.size a
  h_S2048x32 : 0 < S2048x32.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x256_S2048 : S2048x256.Reduces [1] S2048
  shapeCasts_S2048_S2048x1 : S2048.ShapeCasts S2048x1
  broadcasts_S2048x1_S2048x256 : S2048x1.Broadcasts S2048x256
  concatenates_S2048x128_S2048x128_S2048x128_S2048x128_S2048x1_S2048x32_S2048x545_d1 : Shape.Concatenates [S2048x128, S2048x128, S2048x128, S2048x128, S2048x1, S2048x32] S2048x545 1
  inb_S545x128_S545x128_0_0 : ∀ a, (![0, 0] : Fin 2 → Nat) a + S545x128.size a ≤ S545x128.size a
  h_S545x128 : 0 < S545x128.numel
  shapeCasts_S545x128_S545x128 : S545x128.ShapeCasts S545x128
  inb_S2048x128_S2048x128_0_0 : ∀ a, (![0, 0] : Fin 2 → Nat) a + S2048x128.size a ≤ S2048x128.size a
  h_S2048x128 : 0 < S2048x128.numel
  gather_S65536x256_S131072x1_S131072x256_1_0_n_n_0_1_1256_wf : GatherDims.WF S65536x256 S131072x1 S131072x256 [1] [0] [] [0] [] 1 ![1, 256]
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x545_S545x128_S2048x128_1_0_0_1_n_n_wf : DotDims.WF S2048x545 S545x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S131072x32.size a
  hwx0_2 : ∀ i : grid0.Coords, EltTy.bits .f32 = 32 ∨ (Rect.block (s := S131072x32) S2048x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .bf16 = 32 ∨ (Rect.block (s := S256x128) S256x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x128.size a ≤ S256x128.size a
  hwx0_17 : ∀ i : grid0.Coords, EltTy.bits .bf16 = 32 ∨ (Rect.block (s := S256x128) S256x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S545x128.size a ≤ S545x128.size a
  hwx0_19 : ∀ i : grid0.Coords, EltTy.bits .bf16 = 32 ∨ (Rect.block (s := S545x128) S545x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x128.size a ≤ S131072x128.size a
  hwx0_21 : ∀ i : grid0.Coords, EltTy.bits .f32 = 32 ∨ (Rect.block (s := S131072x128) S2048x128.size (cc0_transform_21 i) (hinb0_21 i)).WholeWords (EltTy.packing .f32)

variable [Facts₀]

def gather_S65536x256_S131072x1_S131072x256_1_0_n_n_0_1_1256 : GatherDims S65536x256 S131072x1 S131072x256 where
  offsetDims := [1]
  collapsedSliceDims := [0]
  operandBatchingDims := []
  startIndicesBatchingDims := []
  startIndexMap := [0]
  indexVectorDim := 1
  sliceSizes := ![1, 256]
  wf := gather_S65536x256_S131072x1_S131072x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x545_S545x128_S2048x128_1_0_0_1_n_n : DotDims S2048x545 S545x128 S2048x128 where
  lhsContracting := [1]
  rhsContracting := [0]
  lhsNonContracting := [0]
  rhsNonContracting := [1]
  lhsBatch := []
  rhsBatch := []
  wf := dot_S2048x545_S545x128_S2048x128_1_0_0_1_n_n_wf

abbrev win0_0 : Pipeline.Window sig grid0 :=
  Pipeline.Window.ofSpec (Memref.whole main_v4) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S256x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14) S545x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15) S2048x128.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S65536x256 : Shape := ⟨2, ![65536, 256]⟩
abbrev S2x131072 : Shape := ⟨2, ![2, 131072]⟩
abbrev S131072x32 : Shape := ⟨2, ![131072, 32]⟩
abbrev S256x256 : Shape := ⟨2, ![256, 256]⟩
abbrev S256 : Shape := ⟨1, ![256]⟩
abbrev S256x128 : Shape := ⟨2, ![256, 128]⟩
abbrev S128 : Shape := ⟨1, ![128]⟩
abbrev S545x128 : Shape := ⟨2, ![545, 128]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x256 : Shape := ⟨2, ![131072, 256]⟩
abbrev S1x256 : Shape := ⟨2, ![1, 256]⟩
abbrev S131072x128 : Shape := ⟨2, ![131072, 128]⟩
abbrev S1x128 : Shape := ⟨2, ![1, 128]⟩
abbrev S131072x512 : Shape := ⟨2, ![131072, 512]⟩
abbrev S131072x545 : Shape := ⟨2, ![131072, 545]⟩

abbrev nBuf : Space → Nat
  | .hbm => 132
  | .vmem => 0
  | .smem => 0
  | _ => 0

abbrev hbmTy0_0 (i : Nat) : BufTy := match i % 128 with
  | 0 => ⟨S65536x256, .f32⟩
  | 1 => ⟨S2x131072, .i32⟩
  | 2 => ⟨S131072x32, .f32⟩
  | 3 => ⟨S256x256, .f32⟩
  | 4 => ⟨S256, .f32⟩
  | 5 => ⟨S256x128, .f32⟩
  | 6 => ⟨S128, .f32⟩
  | 7 => ⟨S256x256, .f32⟩
  | 8 => ⟨S256, .f32⟩
  | 9 => ⟨S256x128, .f32⟩
  | 10 => ⟨S128, .f32⟩
  | 11 => ⟨S256x256, .f32⟩
  | 12 => ⟨S256, .f32⟩
  | 13 => ⟨S256x128, .f32⟩
  | 14 => ⟨S128, .f32⟩
  | 15 => ⟨S256x256, .f32⟩
  | 16 => ⟨S256, .f32⟩
  | 17 => ⟨S256x128, .f32⟩
  | 18 => ⟨S128, .f32⟩
  | 19 => ⟨S545x128, .f32⟩
  | 20 => ⟨S128, .f32⟩
  | 21 => ⟨S1x131072, .i32⟩
  | 22 => ⟨S131072, .i32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x256, .f32⟩
  | 32 => ⟨S1x131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S131072x256, .f32⟩
  | 43 => ⟨S131072x256, .f32⟩
  | 44 => ⟨S1x256, .f32⟩
  | 45 => ⟨S131072x256, .f32⟩
  | 46 => ⟨S131072x256, .f32⟩
  | 47 => ⟨S_, .f32⟩
  | 48 => ⟨S131072x256, .f32⟩
  | 49 => ⟨S131072x256, .f32⟩
  | 50 => ⟨S131072x128, .f32⟩
  | 51 => ⟨S1x128, .f32⟩
  | 52 => ⟨S131072x128, .f32⟩
  | 53 => ⟨S131072x128, .f32⟩
  | 54 => ⟨S_, .f32⟩
  | 55 => ⟨S131072x128, .f32⟩
  | 56 => ⟨S131072x128, .f32⟩
  | 57 => ⟨S131072x256, .f32⟩
  | 58 => ⟨S1x256, .f32⟩
  | 59 => ⟨S131072x256, .f32⟩
  | 60 => ⟨S131072x256, .f32⟩
  | 61 => ⟨S_, .f32⟩
  | 62 => ⟨S131072x256, .f32⟩
  | 63 => ⟨S131072x256, .f32⟩
  | 64 => ⟨S131072x128, .f32⟩
  | 65 => ⟨S1x128, .f32⟩
  | 66 => ⟨S131072x128, .f32⟩
  | 67 => ⟨S131072x128, .f32⟩
  | 68 => ⟨S_, .f32⟩
  | 69 => ⟨S131072x128, .f32⟩
  | 70 => ⟨S131072x128, .f32⟩
  | 71 => ⟨S131072x256, .f32⟩
  | 72 => ⟨S131072x256, .f32⟩
  | 73 => ⟨S1x256, .f32⟩
  | 74 => ⟨S131072x256, .f32⟩
  | 75 => ⟨S131072x256, .f32⟩
  | 76 => ⟨S_, .f32⟩
  | 77 => ⟨S131072x256, .f32⟩
  | 78 => ⟨S131072x256, .f32⟩
  | 79 => ⟨S131072x128, .f32⟩
  | 80 => ⟨S1x128, .f32⟩
  | 81 => ⟨S131072x128, .f32⟩
  | 82 => ⟨S131072x128, .f32⟩
  | 83 => ⟨S_, .f32⟩
  | 84 => ⟨S131072x128, .f32⟩
  | 85 => ⟨S131072x128, .f32⟩
  | 86 => ⟨S131072x256, .f32⟩
  | 87 => ⟨S131072x256, .f32⟩
  | 88 => ⟨S1x256, .f32⟩
  | 89 => ⟨S131072x256, .f32⟩
  | 90 => ⟨S131072x256, .f32⟩
  | 91 => ⟨S_, .f32⟩
  | 92 => ⟨S131072x256, .f32⟩
  | 93 => ⟨S131072x256, .f32⟩
  | 94 => ⟨S131072x128, .f32⟩
  | 95 => ⟨S1x128, .f32⟩
  | 96 => ⟨S131072x128, .f32⟩
  | 97 => ⟨S131072x128, .f32⟩
  | 98 => ⟨S_, .f32⟩
  | 99 => ⟨S131072x128, .f32⟩
  | 100 => ⟨S131072x128, .f32⟩
  | 101 => ⟨S131072x512, .f32⟩
  | 102 => ⟨S131072x256, .f32⟩
  | 103 => ⟨S_, .f32⟩
  | 104 => ⟨S131072, .f32⟩
  | 105 => ⟨S131072x1, .f32⟩
  | 106 => ⟨S131072x1, .f32⟩
  | 107 => ⟨S_, .f32⟩
  | 108 => ⟨S131072x1, .f32⟩
  | 109 => ⟨S131072x1, .f32⟩
  | 110 => ⟨S131072x256, .f32⟩
  | 111 => ⟨S_, .f32⟩
  | 112 => ⟨S131072, .f32⟩
  | 113 => ⟨S131072x1, .f32⟩
  | 114 => ⟨S131072x1, .f32⟩
  | 115 => ⟨S_, .f32⟩
  | 116 => ⟨S131072x1, .f32⟩
  | 117 => ⟨S131072x1, .f32⟩
  | 118 => ⟨S131072x256, .f32⟩
  | 119 => ⟨S131072x256, .f32⟩
  | 120 => ⟨S131072x256, .f32⟩
  | 121 => ⟨S131072x256, .f32⟩
  | 122 => ⟨S131072x256, .f32⟩
  | 123 => ⟨S_, .f32⟩
  | 124 => ⟨S131072, .f32⟩
  | 125 => ⟨S131072x1, .f32⟩
  | 126 => ⟨S131072x545, .f32⟩
  | 127 => ⟨S131072x128, .f32⟩
  | _ => ⟨S65536x256, .f32⟩

abbrev hbmTy0_1 (i : Nat) : BufTy := match i % 128 with
  | 0 => ⟨S1x128, .f32⟩
  | 1 => ⟨S131072x128, .f32⟩
  | 2 => ⟨S131072x128, .f32⟩
  | 3 => ⟨S131072x128, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_call0_cst : Ref sig .tc := ⟨.hbm, 47, rfl⟩
abbrev main_call0_v0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call1_cst : Ref sig .tc := ⟨.hbm, 54, rfl⟩
abbrev main_call1_v0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call2_cst : Ref sig .tc := ⟨.hbm, 61, rfl⟩
abbrev main_call2_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call3_cst : Ref sig .tc := ⟨.hbm, 68, rfl⟩
abbrev main_call3_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_call4_cst : Ref sig .tc := ⟨.hbm, 76, rfl⟩
abbrev main_call4_v0 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call5_cst : Ref sig .tc := ⟨.hbm, 83, rfl⟩
abbrev main_call5_v0 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call6_cst : Ref sig .tc := ⟨.hbm, 91, rfl⟩
abbrev main_call6_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call7_cst : Ref sig .tc := ⟨.hbm, 98, rfl⟩
abbrev main_call7_v0 : Ref sig .tc := ⟨.hbm, 99, rfl⟩
abbrev main_v59 : Ref sig .tc := ⟨.hbm, 100, rfl⟩
abbrev main_v60 : Ref sig .tc := ⟨.hbm, 101, rfl⟩
abbrev main_call8_v0 : Ref sig .tc := ⟨.hbm, 102, rfl⟩
abbrev main_call8_cst : Ref sig .tc := ⟨.hbm, 103, rfl⟩
abbrev main_call8_v1 : Ref sig .tc := ⟨.hbm, 104, rfl⟩
abbrev main_call8_v2 : Ref sig .tc := ⟨.hbm, 105, rfl⟩
abbrev main_v61 : Ref sig .tc := ⟨.hbm, 106, rfl⟩
abbrev main_cst : Ref sig .tc := ⟨.hbm, 107, rfl⟩
abbrev main_v62 : Ref sig .tc := ⟨.hbm, 108, rfl⟩
abbrev main_v63 : Ref sig .tc := ⟨.hbm, 109, rfl⟩
abbrev main_call9_v0 : Ref sig .tc := ⟨.hbm, 110, rfl⟩
abbrev main_call9_cst : Ref sig .tc := ⟨.hbm, 111, rfl⟩
abbrev main_call9_v1 : Ref sig .tc := ⟨.hbm, 112, rfl⟩
abbrev main_call9_v2 : Ref sig .tc := ⟨.hbm, 113, rfl⟩
abbrev main_v64 : Ref sig .tc := ⟨.hbm, 114, rfl⟩
abbrev main_cst_3 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_4 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S2x131072_S1x131072_1_0 : S2x131072.Slices ![1, 0] S1x131072
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  concatenates_S131072x128_S131072x128_S131072x128_S131072x128_S131072x512_d1 : Shape.Concatenates [S131072x128, S131072x128, S131072x128, S131072x128] S131072x512 1
  reducesTo_S131072x256_S131072_d1 : S131072x256.ReducesTo [1] S131072
  h_S_ : 0 < S_.numel
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  concatenates_S131072x512_S131072x1_S131072x32_S131072x545_d1 : Shape.Concatenates [S131072x512, S131072x1, S131072x32] S131072x545 1
  gather_S65536x256_S131072x1_S131072x256_1_0_n_n_0_1_1256_wf : GatherDims.WF S65536x256 S131072x1 S131072x256 [1] [0] [] [0] [] 1 ![1, 256]
  dot_S131072x256_S256x256_S131072x256_1_0_0_1_n_n_wf : DotDims.WF S131072x256 S256x256 S131072x256 [1] [0] [0] [1] [] []
  dot_S131072x256_S256x128_S131072x128_1_0_0_1_n_n_wf : DotDims.WF S131072x256 S256x128 S131072x128 [1] [0] [0] [1] [] []
  dot_S131072x545_S545x128_S131072x128_1_0_0_1_n_n_wf : DotDims.WF S131072x545 S545x128 S131072x128 [1] [0] [0] [1] [] []

variable [Facts₀]

def gather_S65536x256_S131072x1_S131072x256_1_0_n_n_0_1_1256 : GatherDims S65536x256 S131072x1 S131072x256 where
  offsetDims := [1]
  collapsedSliceDims := [0]
  operandBatchingDims := []
  startIndicesBatchingDims := []
  startIndexMap := [0]
  indexVectorDim := 1
  sliceSizes := ![1, 256]
  wf := gather_S65536x256_S131072x1_S131072x256_1_0_n_n_0_1_1256_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x545_S545x128_S131072x128_1_0_0_1_n_n : DotDims S131072x545 S545x128 S131072x128 where
  lhsContracting := [1]
  rhsContracting := [0]
  lhsNonContracting := [0]
  rhsNonContracting := [1]
  lhsBatch := []
  rhsBatch := []
  wf := dot_S131072x545_S545x128_S131072x128_1_0_0_1_n_n_wf

class Facts : Prop extends Facts₀ where

variable [Facts]
-- ==== Proof.Spec.lean ====
/-
  The edge network, one edge at a time.

  An edge carries two feature rows of 256 numbers, `a` (the source node's) and `b` (the destination node's), and a row
  `e` of 32 edge attributes. Four two-layer perceptrons (256 → 256 → 128, the positive part after each affine layer)
  read `a`, `b`, `a - b` and `a * b`; the cosine of `a` and `b`, each divided by its Euclidean norm clipped from
  below at a small `eps`, is one more feature. The 4·128 + 1 + 32 = 545 features laid end to end go through one more
  affine layer and the hyperbolic tangent, which gives the edge's 128 outputs.

  Everything is on the extended reals; a sum is a finite sum over a coordinate range, so no order of summation is
  fixed, and no law beyond `0 + x = x` is needed to meet either program's spelling of it.
-/
import Idealize.ShloMosaic.Lib.ValueIdx

noncomputable section

namespace EdgeNet

open Idealize.ShloMosaic Idealize.ShloMosaic.ValueIdx

/-- A matrix with literal extents, entries extended reals. -/
abbrev Mat (k n : Nat) : Type := (⟨2, ![k, n]⟩ : Shape).Idx → EReal
/-- A vector with a literal extent. -/
abbrev Vct (n : Nat) : Type := (⟨1, ![n]⟩ : Shape).Idx → EReal

/-- Row `r` of a matrix, as a function of the column. -/
def row {m n : Nat} (A : Mat m n) (r : Fin m) : Fin n → EReal := fun c => A (ix2 r c)

/-- The positive part. -/
def relu (x : EReal) : EReal := max x 0

/-- The lower clip of a norm: the number the word `0x322BCC77` encodes (the single-precision neighbour of 10⁻⁸). -/
def eps : EReal := Ideal.ofBits .f32 0x322BCC77#32

/-- Output `j` of an affine layer: the input row against column `j` of the weights, plus the bias. -/
def lin {k n : Nat} (h : Fin k → EReal) (W : Mat k n) (b : Vct n) (j : Fin n) : EReal :=
  (∑ q : Fin k, h q * W (ix2 q j)) + b (ix1 j)

/-- Output `j` of a two-layer perceptron with the positive part after each layer. -/
def mlp (h : Fin 256 → EReal) (Wa : Mat 256 256) (ba : Vct 256) (Wb : Mat 256 128) (bb : Vct 128) (j : Fin 128) : EReal :=
  relu (lin (fun q => relu (lin h Wa ba q)) Wb bb j)

/-- The Euclidean norm of a row, clipped from below at `eps`. -/
def norm (h : Fin 256 → EReal) : EReal := max (Ideal.sqrt (∑ d : Fin 256, h d * h d)) eps

/-- The cosine of two rows: the sum of the products of the rows' entries, each divided by its row's clipped norm. -/
def cosine (a b : Fin 256 → EReal) : EReal :=
  ∑ d : Fin 256, Ideal.div (a d) (norm a) * Ideal.div (b d) (norm b)

/-- The network's weights. -/
structure Params where
  W1a : Mat 256 256
  b1a : Vct 256
  W1b : Mat 256 128
  b1b : Vct 128
  W2a : Mat 256 256
  b2a : Vct 256
  W2b : Mat 256 128
  b2b : Vct 128
  W3a : Mat 256 256
  b3a : Vct 256
  W3b : Mat 256 128
  b3b : Vct 128
  W4a : Mat 256 256
  b4a : Vct 256
  W4b : Mat 256 128
  b4b : Vct 128
  Wf : Mat 545 128
  bf : Vct 128

/-- The 545 features of an edge, laid end to end: four perceptrons' 128 outputs each, the cosine, the 32 attributes. -/
def feat (P : Params) (a b : Fin 256 → EReal) (e : Fin 32 → EReal) (k : Fin 545) : EReal :=
  if h1 : k.val < 128 then mlp a P.W1a P.b1a P.W1b P.b1b ⟨k.val, h1⟩
  else if h2 : k.val < 256 then mlp b P.W2a P.b2a P.W2b P.b2b ⟨k.val - 128, by omega⟩
  else if h3 : k.val < 384 then mlp (fun d => a d - b d) P.W3a P.b3a P.W3b P.b3b ⟨k.val - 256, by omega⟩
  else if h4 : k.val < 512 then mlp (fun d => a d * b d) P.W4a P.b4a P.W4b P.b4b ⟨k.val - 384, by omega⟩
  else if h5 : k.val < 513 then cosine a b
  else e ⟨k.val - 513, by have := k.isLt; omega⟩

/-- Output `o` of an edge. -/
def out (P : Params) (a b : Fin 256 → EReal) (e : Fin 32 → EReal) (o : Fin 128) : EReal :=
  Ideal.tanh (lin (feat P a b e) P.Wf P.bf o)

end EdgeNet

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KernelRows.lean ====
/-
  One row of a block of the kernel's output.

  The body's one store writes, at row `p` of its 2048-row block and column `o`, the edge network's output `o` on row `p`
  of the two feature blocks and of the attribute block, with the weights as loaded: every operation of the body is
  row-wise (a matrix product against a weight matrix, a bias laid along the rows, the positive part, a sum along a row, a
  column laid across a row, a joining of columns), so a row of the result is a function of the same row of the inputs.
-/
import proofs.«419241_j47699906789820_1_alg».proof.Proof.Gen.KernelIdeal.Skeleton
import proofs.«419241_j47699906789820_1_alg».proof.Proof.Spec
import proofs.«419241_j47699906789820_1_alg».proof.Proof.LibPlainDot
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-- The weights as the body loads them, in the order of the body's operands. -/
def params (w1a : Vec Ideal S256x256 .bf16) (c1a : Vec Ideal S256 .f32) (w1b : Vec Ideal S256x128 .bf16) (c1b : Vec Ideal S128 .f32)
    (w2a : Vec Ideal S256x256 .bf16) (c2a : Vec Ideal S256 .f32) (w2b : Vec Ideal S256x128 .bf16) (c2b : Vec Ideal S128 .f32)
    (w3a : Vec Ideal S256x256 .bf16) (c3a : Vec Ideal S256 .f32) (w3b : Vec Ideal S256x128 .bf16) (c3b : Vec Ideal S128 .f32)
    (w4a : Vec Ideal S256x256 .bf16) (c4a : Vec Ideal S256 .f32) (w4b : Vec Ideal S256x128 .bf16) (c4b : Vec Ideal S128 .f32)
    (wf : Vec Ideal S545x128 .bf16) (cf : Vec Ideal S128 .f32) : EdgeNet.Params :=
  ⟨w1a, c1a, w1b, c1b, w2a, c2a, w2b, c2b, w3a, c3a, w3b, c3b, w4a, c4a, w4b, c4b, wf, cf⟩

/-! ## Layout operations of the body, read at an index -/

section Layout
variable {α : Type}

/-- A bias vector viewed as one row and laid down every row reads, at `(p, c)`, the vector at `c`. -/
private theorem bias_apply {M N : Nat} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (c : Fin N) :
    broadcastTo ⟨2, ![M, N]⟩ (shapeCast ⟨2, ![1, N]⟩ b h1) h2 (ix2 p c) = b (ix1 c) :=
  (broadcastTo_1b_ab_apply _ h2 p c).trans (shapeCast_a_1a_apply b h1 0 c)

/-- A vector of `M` numbers viewed as a column reads, at `(p, z)`, the vector at `p`. -/
private theorem keepdims_apply {M : Nat} (v : (⟨1, ![M]⟩ : Shape).Idx → α) (h : (⟨1, ![M]⟩ : Shape).ShapeCasts ⟨2, ![M, 1]⟩)
    (p : Fin M) (z : Fin 1) : shapeCast ⟨2, ![M, 1]⟩ v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-- A column laid across `N` columns reads, at `(p, c)`, the column at row `p`. -/
private theorem column_apply {M N : Nat} (col : (⟨2, ![M, 1]⟩ : Shape).Idx → α) (h : (⟨2, ![M, 1]⟩ : Shape).Broadcasts ⟨2, ![M, N]⟩)
    (p : Fin M) (c : Fin N) : broadcastTo ⟨2, ![M, N]⟩ col h (ix2 p c) = col (ix2 p (0 : Fin 1)) := by
  refine broadcastTo_apply col h (ix2 p c) (ix2 p (0 : Fin 1)) fun ax => ?_
  match ax with
  | ⟨0, _⟩ =>
    show p.val = if M = 1 then 0 else p.val
    split
    · have := p.isLt; omega
    · rfl
  | ⟨1, _⟩ => rfl

end Layout

/-- A sum along the rows of an `M × N` matrix reads, at `p`, the sum of row `p`. -/
private theorem rowsum_apply {M N : Nat} (src : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (p : Fin M) :
    multiReduction (F := Ideal) .add [1] ⟨1, ![M]⟩ src 0x00000000#32 h hφ hacc (ix1 p) = ∑ d : Fin N, src (ix2 p d) := by
  refine (Ideal.multiReduction_add_single src 0x00000000#32 h hφ hacc (ix1 p)).trans ?_
  refine Finset.sum_congr rfl fun d _ => congrArg src ?_
  funext ax
  match ax with
  | ⟨0, _⟩ => rfl
  | ⟨1, _⟩ => rfl

/-! ## An affine layer and a perceptron, at an entry -/

section Layers
variable {M K N : Nat}

/-- A matrix product into the zero splat plus a bias laid along the rows: at `(p, j)`, the affine layer's output `j`
    on row `p` of the left operand. -/
private theorem affine_apply (d : DotDims ⟨2, ![M, K]⟩ ⟨2, ![K, N]⟩ ⟨2, ![M, N]⟩) (hd : PlainDot.IsPlain d)
    (A : FVec Ideal ⟨2, ![M, K]⟩ .bf16) (W : FVec Ideal ⟨2, ![K, N]⟩ .bf16)
    (hW : (⟨2, ![K, N]⟩ : Shape).ShapeCasts ⟨2, ![K, N]⟩) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (j : Fin N) :
    addf (matmul d none A (shapeCast ⟨2, ![K, N]⟩ W hW) (constant ⟨2, ![M, N]⟩ .f32 0x00000000#32))
        (broadcastTo ⟨2, ![M, N]⟩ (shapeCast ⟨2, ![1, N]⟩ b h1) h2) (ix2 p j)
      = EdgeNet.lin (fun q => A (ix2 p q)) W b j := by
  rw [shapeCast_self W hW]
  show FloatOps.matmul d none A W (constant ⟨2, ![M, N]⟩ .f32 0x00000000#32) (ix2 p j)
      + broadcastTo ⟨2, ![M, N]⟩ (shapeCast ⟨2, ![1, N]⟩ b h1) h2 (ix2 p j) = _
  rw [PlainDot.matmul_zero_apply d hd none A W p j, bias_apply b h1 h2 p j]
  rfl

/-- The same followed by the positive part against the zero splat. -/
private theorem layer_apply (d : DotDims ⟨2, ![M, K]⟩ ⟨2, ![K, N]⟩ ⟨2, ![M, N]⟩) (hd : PlainDot.IsPlain d)
    (A : FVec Ideal ⟨2, ![M, K]⟩ .bf16) (W : FVec Ideal ⟨2, ![K, N]⟩ .bf16)
    (hW : (⟨2, ![K, N]⟩ : Shape).ShapeCasts ⟨2, ![K, N]⟩) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (j : Fin N) :
    maximumf (addf (matmul d none A (shapeCast ⟨2, ![K, N]⟩ W hW) (constant ⟨2, ![M, N]⟩ .f32 0x00000000#32))
        (broadcastTo ⟨2, ![M, N]⟩ (shapeCast ⟨2, ![1, N]⟩ b h1) h2))
        (broadcast ⟨2, ![M, N]⟩ (Scalar.ofBits (F := Ideal) .f32 0x00000000#32)) (ix2 p j)
      = EdgeNet.relu (EdgeNet.lin (fun q => A (ix2 p q)) W b j) := by
  show max (addf (matmul d none A (shapeCast ⟨2, ![K, N]⟩ W hW) (constant ⟨2, ![M, N]⟩ .f32 0x00000000#32))
        (broadcastTo ⟨2, ![M, N]⟩ (shapeCast ⟨2, ![1, N]⟩ b h1) h2) (ix2 p j)) (Ideal.ofBits .f32 0x00000000#32) = _
  rw [affine_apply d hd A W hW b h1 h2 p j, Ideal.ofBits_zero_f32]
  rfl

end Layers

/-! ## The body's perceptrons, at an entry -/

private theorem plain256 : PlainDot.IsPlain dot_S2048x256_S256x256_S2048x256_1_0_0_1_n_n := ⟨rfl, rfl, rfl, rfl, rfl, rfl⟩
private theorem plain128 : PlainDot.IsPlain dot_S2048x256_S256x128_S2048x128_1_0_0_1_n_n := ⟨rfl, rfl, rfl, rfl, rfl, rfl⟩
private theorem plain545 : PlainDot.IsPlain dot_S2048x545_S545x128_S2048x128_1_0_0_1_n_n := ⟨rfl, rfl, rfl, rfl, rfl, rfl⟩

/-- The source block's identity cast. -/
private theorem pay2_eq (v : Vec Ideal S2048x256 .f32) : k0_pay2 (F := Ideal) v = v := shapeCast_self v _
/-- The destination block's identity cast. -/
private theorem pay3_eq (v : Vec Ideal S2048x256 .f32) : k0_pay3 (F := Ideal) v = v := shapeCast_self v _

/-- The difference of the two blocks, at an entry. -/
private theorem pay4_apply (xs xd : Vec Ideal S2048x256 .f32) (p : Fin 2048) (d : Fin 256) :
    k0_pay4 (F := Ideal) xs xd (ix2 p d) = xs (ix2 p d) - xd (ix2 p d) := by
  unfold k0_pay4
  rw [pay2_eq, pay3_eq]
  rfl

/-- The product of the two blocks, at an entry. -/
private theorem pay5_apply (xs xd : Vec Ideal S2048x256 .f32) (p : Fin 2048) (d : Fin 256) :
    k0_pay5 (F := Ideal) xs xd (ix2 p d) = xs (ix2 p d) * xd (ix2 p d) := by
  unfold k0_pay5
  rw [pay2_eq, pay3_eq]
  rfl

/-- A first layer (with the narrowing after it) on a block `X`: at `(p, q)`, hidden unit `q` on row `p` of `X`. -/
private theorem pay10_apply (X : FVec Ideal S2048x256 .f32) (w : Vec Ideal S256x256 .bf16) (c : Vec Ideal S256 .f32)
    (p : Fin 2048) (q : Fin 256) :
    k0_pay10 (F := Ideal) X w c (ix2 p q) = EdgeNet.relu (EdgeNet.lin (fun d => X (ix2 p d)) w c q) :=
  layer_apply (M := 2048) dot_S2048x256_S256x256_S2048x256_1_0_0_1_n_n plain256 (truncf .bf16 X Facts₀.bitsLt_bf16_f32) w
    Facts₀.shapeCasts_S256x256_S256x256 c Facts₀.shapeCasts_S256_S1x256 Facts₀.broadcasts_S1x256_S2048x256 p q

/-- The second perceptron's first layer on the destination block. -/
private theorem pay7_apply (xd : Vec Ideal S2048x256 .f32) (w : Vec Ideal S256x256 .bf16) (c : Vec Ideal S256 .f32)
    (p : Fin 2048) (q : Fin 256) :
    k0_pay7 (F := Ideal) xd w c (ix2 p q) = EdgeNet.relu (EdgeNet.lin (EdgeNet.row xd p) w c q) := by
  have h := layer_apply (M := 2048) dot_S2048x256_S256x256_S2048x256_1_0_0_1_n_n plain256
    (truncf .bf16 (k0_pay3 (F := Ideal) xd) Facts₀.bitsLt_bf16_f32) w
    Facts₀.shapeCasts_S256x256_S256x256 c Facts₀.shapeCasts_S256_S1x256 Facts₀.broadcasts_S1x256_S2048x256 p q
  refine h.trans ?_
  rw [pay3_eq]
  rfl

/-- A second layer on a narrowed block `A`: at `(p, j)`, output `j` on row `p` of `A`. -/
private theorem pay8_apply (A : FVec Ideal S2048x256 .bf16) (w : Vec Ideal S256x128 .bf16) (c : Vec Ideal S128 .f32)
    (p : Fin 2048) (j : Fin 128) :
    k0_pay8 (F := Ideal) A w c (ix2 p j) = EdgeNet.relu (EdgeNet.lin (fun q => A (ix2 p q)) w c j) :=
  layer_apply (M := 2048) dot_S2048x256_S256x128_S2048x128_1_0_0_1_n_n plain128 A w
    Facts₀.shapeCasts_S256x128_S256x128 c Facts₀.shapeCasts_S128_S1x128 Facts₀.broadcasts_S1x128_S2048x128 p j

/-- A whole perceptron on a block `X`: at `(p, j)`, the perceptron's output `j` on row `p` of `X`. -/
private theorem pay9_apply (X : FVec Ideal S2048x256 .f32) (wa : Vec Ideal S256x256 .bf16) (ca : Vec Ideal S256 .f32)
    (wb : Vec Ideal S256x128 .bf16) (cb : Vec Ideal S128 .f32) (p : Fin 2048) (j : Fin 128) :
    k0_pay9 (F := Ideal) X wa ca wb cb (ix2 p j) = EdgeNet.mlp (fun d => X (ix2 p d)) wa ca wb cb j := by
  have h := pay8_apply (k0_pay10 (F := Ideal) X wa ca) wb cb p j
  rw [funext fun q => pay10_apply X wa ca p q] at h
  exact h

/-- The first perceptron on the source block. -/
private theorem pay6_apply (xs : Vec Ideal S2048x256 .f32) (wa : Vec Ideal S256x256 .bf16) (ca : Vec Ideal S256 .f32)
    (wb : Vec Ideal S256x128 .bf16) (cb : Vec Ideal S128 .f32) (p : Fin 2048) (j : Fin 128) :
    k0_pay6 (F := Ideal) xs wa ca wb cb (ix2 p j) = EdgeNet.mlp (EdgeNet.row xs p) wa ca wb cb j := by
  refine (pay9_apply (k0_pay2 (F := Ideal) xs) wa ca wb cb p j).trans ?_
  rw [pay2_eq]
  rfl

/-! ## The clipped norm and the cosine, at a row -/

section Cosine
variable {M : Nat}

/-- The clipped norm of every row, kept as a column and laid across the row: at `(p, c)`, the clipped norm of row `p`. -/
private theorem norm_apply (X : FVec Ideal ⟨2, ![M, 256]⟩ .f32) (hred : (⟨2, ![M, 256]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, 256]⟩)
    (p : Fin M) (c : Fin 256) :
    broadcastTo ⟨2, ![M, 256]⟩
        (maximumf (sqrt (shapeCast ⟨2, ![M, 1]⟩
            (multiReduction (F := Ideal) .add [1] ⟨1, ![M]⟩ (mulf X X) 0x00000000#32 hred hφ hacc) hsc))
          (broadcast ⟨2, ![M, 1]⟩ (Scalar.ofBits (F := Ideal) .f32 0x322BCC77#32))) hbc (ix2 p c)
      = EdgeNet.norm (fun d => X (ix2 p d)) := by
  refine (column_apply _ hbc p c).trans ?_
  show max (Ideal.sqrt (shapeCast ⟨2, ![M, 1]⟩
      (multiReduction (F := Ideal) .add [1] ⟨1, ![M]⟩ (mulf X X) 0x00000000#32 hred hφ hacc) hsc (ix2 p (0 : Fin 1))))
    (Ideal.ofBits .f32 0x322BCC77#32) = _
  rw [keepdims_apply _ hsc p 0, rowsum_apply (mulf X X) hred hφ hacc p]
  rfl

/-- The sum along each row of the product of the two blocks, each divided by its rows' clipped norms, kept as a column:
    at `(p, z)`, the cosine of the two rows `p`. -/
private theorem cosine_apply (X Y nX nY : FVec Ideal ⟨2, ![M, 256]⟩ .f32) (p : Fin M)
    (hX : ∀ c, nX (ix2 p c) = EdgeNet.norm (fun d => X (ix2 p d)))
    (hY : ∀ c, nY (ix2 p c) = EdgeNet.norm (fun d => Y (ix2 p d)))
    (hred : (⟨2, ![M, 256]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (z : Fin 1) :
    shapeCast ⟨2, ![M, 1]⟩
        (multiReduction (F := Ideal) .add [1] ⟨1, ![M]⟩ (mulf (divf X nX) (divf Y nY)) 0x00000000#32 hred hφ hacc) hsc (ix2 p z)
      = EdgeNet.cosine (fun d => X (ix2 p d)) (fun d => Y (ix2 p d)) := by
  rw [keepdims_apply _ hsc p z, rowsum_apply _ hred hφ hacc p]
  refine Finset.sum_congr rfl fun d _ => ?_
  show Ideal.div (X (ix2 p d)) (nX (ix2 p d)) * Ideal.div (Y (ix2 p d)) (nY (ix2 p d)) = _
  rw [hX d, hY d]

end Cosine

/-! ## Six column groups joined, at an entry -/

/-- Groups of 128, 128, 128, 128, 1 and 32 columns joined along the columns: at `(p, k)`, the group whose span holds
    `k`, at `k` less the columns before the group; each group is given by what it reads on row `p`. -/
private theorem join6_apply {α : Type} {M : Nat} (x1 x2 x3 x4 : (⟨2, ![M, 128]⟩ : Shape).Idx → α) (x5 : (⟨2, ![M, 1]⟩ : Shape).Idx → α)
    (x6 : (⟨2, ![M, 32]⟩ : Shape).Idx → α)
    (h : Shape.Concatenates [⟨2, ![M, 128]⟩, ⟨2, ![M, 128]⟩, ⟨2, ![M, 128]⟩, ⟨2, ![M, 128]⟩, ⟨2, ![M, 1]⟩, ⟨2, ![M, 32]⟩]
      ⟨2, ![M, 545]⟩ 1) (p : Fin M) (k : Fin 545)
    (g1 g2 g3 g4 : Fin 128 → α) (g5 : α) (g6 : Fin 32 → α)
    (e1 : ∀ j, x1 (ix2 p j) = g1 j) (e2 : ∀ j, x2 (ix2 p j) = g2 j) (e3 : ∀ j, x3 (ix2 p j) = g3 j)
    (e4 : ∀ j, x4 (ix2 p j) = g4 j) (e5 : x5 (ix2 p (0 : Fin 1)) = g5) (e6 : ∀ j, x6 (ix2 p j) = g6 j) :
    concatenate ⟨2, ![M, 545]⟩ 1 [⟨⟨2, ![M, 128]⟩, x1⟩, ⟨⟨2, ![M, 128]⟩, x2⟩, ⟨⟨2, ![M, 128]⟩, x3⟩, ⟨⟨2, ![M, 128]⟩, x4⟩,
        ⟨⟨2, ![M, 1]⟩, x5⟩, ⟨⟨2, ![M, 32]⟩, x6⟩] h (ix2 p k)
      = if h1 : k.val < 128 then g1 ⟨k.val, h1⟩
        else if h2 : k.val < 256 then g2 ⟨k.val - 128, by omega⟩
        else if h3 : k.val < 384 then g3 ⟨k.val - 256, by omega⟩
        else if h4 : k.val < 512 then g4 ⟨k.val - 384, by omega⟩
        else if _h5 : k.val < 513 then g5
        else g6 ⟨k.val - 513, by have := k.isLt; omega⟩ := by
  have hk := k.isLt
  have P := fun (n : Nat) (hn : n < 6) => concatenate_apply_piece (α := α) 1
    [⟨⟨2, ![M, 128]⟩, x1⟩, ⟨⟨2, ![M, 128]⟩, x2⟩, ⟨⟨2, ![M, 128]⟩, x3⟩, ⟨⟨2, ![M, 128]⟩, x4⟩, ⟨⟨2, ![M, 1]⟩, x5⟩, ⟨⟨2, ![M, 32]⟩, x6⟩]
    h (ix2 p k) n hn
  split
  · next h1 =>
    exact (P 0 (by omega) _ x1 rfl rfl 0 rfl (ix2 p ⟨k.val, h1⟩)
      (fun b => match b with | ⟨0, _⟩ => fun _ => rfl | ⟨1, _⟩ => fun hb => absurd (Fin.ext rfl) hb)
      (by show 0 + k.val = k.val; omega)).trans (e1 _)
  · split
    · next h1 h2 =>
      exact (P 1 (by omega) _ x2 rfl rfl 128 rfl (ix2 p ⟨k.val - 128, by omega⟩)
        (fun b => match b with | ⟨0, _⟩ => fun _ => rfl | ⟨1, _⟩ => fun hb => absurd (Fin.ext rfl) hb)
        (by show 128 + (k.val - 128) = k.val; omega)).trans (e2 _)
    · split
      · next h1 h2 h3 =>
        exact (P 2 (by omega) _ x3 rfl rfl 256 rfl (ix2 p ⟨k.val - 256, by omega⟩)
          (fun b => match b with | ⟨0, _⟩ => fun _ => rfl | ⟨1, _⟩ => fun hb => absurd (Fin.ext rfl) hb)
          (by show 256 + (k.val - 256) = k.val; omega)).trans (e3 _)
      · split
        · next h1 h2 h3 h4 =>
          exact (P 3 (by omega) _ x4 rfl rfl 384 rfl (ix2 p ⟨k.val - 384, by omega⟩)
            (fun b => match b with | ⟨0, _⟩ => fun _ => rfl | ⟨1, _⟩ => fun hb => absurd (Fin.ext rfl) hb)
            (by show 384 + (k.val - 384) = k.val; omega)).trans (e4 _)
        · split
          · next h1 h2 h3 h4 h5 =>
            exact (P 4 (by omega) _ x5 rfl rfl 512 rfl (ix2 p (0 : Fin 1))
              (fun b => match b with | ⟨0, _⟩ => fun _ => rfl | ⟨1, _⟩ => fun hb => absurd (Fin.ext rfl) hb)
              (by show 512 + 0 = k.val; omega)).trans e5
          · next h1 h2 h3 h4 h5 =>
            exact (P 5 (by omega) _ x6 rfl rfl 513 rfl
              (ix2 p ⟨k.val - 513, by omega⟩)
              (fun b => match b with | ⟨0, _⟩ => fun _ => rfl | ⟨1, _⟩ => fun hb => absurd (Fin.ext rfl) hb)
              (by show 513 + (k.val - 513) = k.val; omega)).trans (e6 _)

/-! ## The stored value -/

/-- The last stage on generic operands: given what the first three perceptrons' blocks read on row `p`, the stored
    value at `(p, o)` is the hyperbolic tangent of the last affine layer on the 545 joined features of row `p`. -/
private theorem pay1_apply (v1 v3 : FVec Ideal S2048x256 .f32) (v4 : Vec Ideal S2048x32 .f32) (v26 v46 v66 : FVec Ideal S2048x128 .f32)
    (v77 : FVec Ideal S2048x256 .bf16) (v78 : Vec Ideal S256x128 .bf16) (v81 : Vec Ideal S128 .f32)
    (v108 : Vec Ideal S545x128 .bf16) (v111 : Vec Ideal S128 .f32) (p : Fin 2048) (o : Fin 128)
    (g1 g2 g3 : Fin 128 → EReal) (e1 : ∀ j, v26 (ix2 p j) = g1 j) (e2 : ∀ j, v46 (ix2 p j) = g2 j)
    (e3 : ∀ j, v66 (ix2 p j) = g3 j) :
    k0_pay1 (F := Ideal) v1 v3 v4 v26 v46 v66 v77 v78 v81 v108 v111 (ix2 p o)
      = Ideal.tanh (EdgeNet.lin (fun k : Fin 545 =>
          if h1 : k.val < 128 then g1 ⟨k.val, h1⟩
          else if h2 : k.val < 256 then g2 ⟨k.val - 128, by omega⟩
          else if h3 : k.val < 384 then g3 ⟨k.val - 256, by omega⟩
          else if h4 : k.val < 512 then
            EdgeNet.relu (EdgeNet.lin (fun q => v77 (ix2 p q)) v78 v81 ⟨k.val - 384, by omega⟩)
          else if _h5 : k.val < 513 then EdgeNet.cosine (fun d => v1 (ix2 p d)) (fun d => v3 (ix2 p d))
          else v4 (ix2 p ⟨k.val - 513, by have := k.isLt; omega⟩)) v108 v111 o) := by
  unfold k0_pay1
  refine congrArg Ideal.tanh ?_
  refine (affine_apply (M := 2048) dot_S2048x545_S545x128_S2048x128_1_0_0_1_n_n plain545 _ v108
    Facts₀.shapeCasts_S545x128_S545x128 v111 Facts₀.shapeCasts_S128_S1x128 Facts₀.broadcasts_S1x128_S2048x128 p o).trans ?_
  refine congrArg (fun g => EdgeNet.lin g v108 v111 o) (funext fun k => ?_)
  refine (truncf_apply (ψ := .bf16) _ Facts₀.bitsLt_bf16_f32 (ix2 p k)).trans ?_
  refine join6_apply (M := 2048) v26 v46 v66 _ _ v4
    Facts₀.concatenates_S2048x128_S2048x128_S2048x128_S2048x128_S2048x1_S2048x32_S2048x545_d1 p k g1 g2 g3
    (fun j => EdgeNet.relu (EdgeNet.lin (fun q => v77 (ix2 p q)) v78 v81 j))
    (EdgeNet.cosine (fun d => v1 (ix2 p d)) (fun d => v3 (ix2 p d))) (fun j => v4 (ix2 p j))
    e1 e2 e3 (fun j => ?_) ?_ (fun j => rfl)
  · exact layer_apply (M := 2048) dot_S2048x256_S256x128_S2048x128_1_0_0_1_n_n plain128 v77 v78
      Facts₀.shapeCasts_S256x128_S256x128 v81 Facts₀.shapeCasts_S128_S1x128 Facts₀.broadcasts_S1x128_S2048x128 p j
  · exact cosine_apply (M := 2048) v1 v3 _ _ p
      (fun c => norm_apply (M := 2048) v1 Facts₀.reduces_S2048x256_S2048 (.inl rfl) rfl Facts₀.shapeCasts_S2048_S2048x1
        Facts₀.broadcasts_S2048x1_S2048x256 p c)
      (fun c => norm_apply (M := 2048) v3 Facts₀.reduces_S2048x256_S2048 (.inl rfl) rfl Facts₀.shapeCasts_S2048_S2048x1
        Facts₀.broadcasts_S2048x1_S2048x256 p c)
      Facts₀.reduces_S2048x256_S2048 (.inl rfl) rfl Facts₀.shapeCasts_S2048_S2048x1 0

/-- The stored value at row `p`, column `o` of the block is the edge network on row `p` of the loaded blocks. -/
theorem payload_row (xs xd : Vec Ideal S2048x256 .f32) (ea : Vec Ideal S2048x32 .f32)
    (w1a : Vec Ideal S256x256 .bf16) (c1a : Vec Ideal S256 .f32) (w1b : Vec Ideal S256x128 .bf16) (c1b : Vec Ideal S128 .f32)
    (w2a : Vec Ideal S256x256 .bf16) (c2a : Vec Ideal S256 .f32) (w2b : Vec Ideal S256x128 .bf16) (c2b : Vec Ideal S128 .f32)
    (w3a : Vec Ideal S256x256 .bf16) (c3a : Vec Ideal S256 .f32) (w3b : Vec Ideal S256x128 .bf16) (c3b : Vec Ideal S128 .f32)
    (w4a : Vec Ideal S256x256 .bf16) (c4a : Vec Ideal S256 .f32) (w4b : Vec Ideal S256x128 .bf16) (c4b : Vec Ideal S128 .f32)
    (wf : Vec Ideal S545x128 .bf16) (cf : Vec Ideal S128 .f32) (p : Fin 2048) (o : Fin 128) :
    k0_pay1 (F := Ideal) (k0_pay2 xs) (k0_pay3 xd) ea (k0_pay6 xs w1a c1a w1b c1b) (k0_pay8 (k0_pay7 xd w2a c2a) w2b c2b)
        (k0_pay9 (k0_pay4 xs xd) w3a c3a w3b c3b) (k0_pay10 (k0_pay5 xs xd) w4a c4a) w4b c4b wf cf (ix2 p o)
      = EdgeNet.out (params w1a c1a w1b c1b w2a c2a w2b c2b w3a c3a w3b c3b w4a c4a w4b c4b wf cf)
          (EdgeNet.row xs p) (EdgeNet.row xd p) (EdgeNet.row ea p) o := by
  refine (pay1_apply (k0_pay2 xs) (k0_pay3 xd) ea (k0_pay6 xs w1a c1a w1b c1b) (k0_pay8 (k0_pay7 xd w2a c2a) w2b c2b)
    (k0_pay9 (k0_pay4 xs xd) w3a c3a w3b c3b) (k0_pay10 (k0_pay5 xs xd) w4a c4a) w4b c4b wf cf p o
    (EdgeNet.mlp (EdgeNet.row xs p) w1a c1a w1b c1b)
    (EdgeNet.mlp (EdgeNet.row xd p) w2a c2a w2b c2b)
    (EdgeNet.mlp (fun d => xs (ix2 p d) - xd (ix2 p d)) w3a c3a w3b c3b)
    (pay6_apply xs w1a c1a w1b c1b p) (fun j => ?_) (fun j => ?_)).trans ?_
  · refine (pay8_apply (k0_pay7 xd w2a c2a) w2b c2b p j).trans ?_
    rw [funext fun q => pay7_apply xd w2a c2a p q]
    rfl
  · refine (pay9_apply (k0_pay4 xs xd) w3a c3a w3b c3b p j).trans ?_
    rw [funext fun d => pay4_apply xs xd p d]
  · rw [pay2_eq, pay3_eq, funext fun q => pay10_apply (k0_pay5 xs xd) w4a c4a p q, funext fun d => pay5_apply xs xd p d]
    rfl

end Cert.KernelIdeal.Rows

end
-- ==== Proof.KernelBlocks.lean ====
/-
  Where the kernel's blocks lie in its arrays.

  The grid has 64 points; point `t` handles the 2048 edges t·2048 … t·2048 + 2047: its blocks of the two feature arrays,
  of the attribute array and of the output are rows t·2048 + p (p < 2048) of those arrays, and it sees every weight
  array whole. The body writes, at row p of the output block, the edge network on row p of its blocks; so the point
  writes back rows t·2048 + p of ONE array-wide function: entry (r, o) is the edge network's output o on row r of the
  feature and attribute arrays. Every row r lies in the block of point r / 2048, so after the run the output array is
  that function everywhere.
-/
import proofs.«419241_j47699906789820_1_alg».proof.Proof.Gen.KernelIdeal.Value
import proofs.«419241_j47699906789820_1_alg».proof.Proof.KernelRows

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, at their literal types -/

/-- The gathered source rows, one per edge. -/
abbrev srcArr (c : Dev nD) : Vec Ideal S131072x256 .f32 := V m c main_v4
/-- The gathered destination rows. -/
abbrev dstArr (c : Dev nD) : Vec Ideal S131072x256 .f32 := V m c main_v5
/-- The edge attributes. -/
abbrev attrArr (c : Dev nD) : Vec Ideal S131072x32 .f32 := V m c main_arg2

/-- The weights the region finds. -/
abbrev regionParams (c : Dev nD) : EdgeNet.Params :=
  Rows.params (V m c main_v6) (V m c main_arg4) (V m c main_v10) (V m c main_arg6)
    (V m c main_v7) (V m c main_arg8) (V m c main_v11) (V m c main_arg10)
    (V m c main_v8) (V m c main_arg12) (V m c main_v12) (V m c main_arg14)
    (V m c main_v9) (V m c main_arg16) (V m c main_v13) (V m c main_arg18)
    (V m c main_v14) (V m c main_arg20)

/-- The output array as one function of the arrays the region finds: entry (r, o) is the edge network's output `o` on
    row `r`. -/
def G (c : Dev nD) : Vec Ideal S131072x128 .f32 := fun j =>
  EdgeNet.out (regionParams m c) (EdgeNet.row (srcArr m c) ⟨(j 0).val, idx2_lt0 j⟩) (EdgeNet.row (dstArr m c) ⟨(j 0).val, idx2_lt0 j⟩)
    (EdgeNet.row (attrArr m c) ⟨(j 0).val, idx2_lt0 j⟩) ⟨(j 1).val, idx2_lt1 j⟩

/-! ## Where the blocks lie -/

/-- The blocks that move with the grid sit at block row `t`, block column 0, at every point `t` (decided over the 64 points). -/
theorem idx_rows : ∀ t : Fin cfg0.N,
    win0_21.index t (0 : Fin 2) = t.val ∧ win0_21.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, d) of point `t`'s source block is entry (t·2048 + p, d) of the source array. -/
theorem src_blk (c : Dev nD) (t : Fin cfg0.N) (p : Fin 2048) (d : Fin 256) (hr : t.val * 2048 + p.val < 131072) :
    (iblk m c 0 t : Vec Ideal S2048x256 .f32) (ix2 p d) = srcArr m c (ix2 ⟨t.val * 2048 + p.val, hr⟩ d) := by
  show V m c main_v4 (((cfg0.win 0).blk t).view.emb (ix2 p d)) = V m c main_v4 _
  refine congrArg (V m c main_v4) ?_
  obtain ⟨e0, e1, e2, e3, e4, e5, e6, e7⟩ := idx_rows t
  funext a; apply Fin.ext
  match a with
  | ⟨0, _⟩ => show win0_0.index t (0 : Fin 2) * 2048 + 1 * p.val = t.val * 2048 + p.val; omega
  | ⟨1, _⟩ => show win0_0.index t (1 : Fin 2) * 256 + 1 * d.val = d.val; omega

/-- Entry (p, d) of point `t`'s destination block is entry (t·2048 + p, d) of the destination array. -/
theorem dst_blk (c : Dev nD) (t : Fin cfg0.N) (p : Fin 2048) (d : Fin 256) (hr : t.val * 2048 + p.val < 131072) :
    (iblk m c 1 t : Vec Ideal S2048x256 .f32) (ix2 p d) = dstArr m c (ix2 ⟨t.val * 2048 + p.val, hr⟩ d) := by
  show V m c main_v5 (((cfg0.win 1).blk t).view.emb (ix2 p d)) = V m c main_v5 _
  refine congrArg (V m c main_v5) ?_
  obtain ⟨e0, e1, e2, e3, e4, e5, e6, e7⟩ := idx_rows t
  funext a; apply Fin.ext
  match a with
  | ⟨0, _⟩ => show win0_1.index t (0 : Fin 2) * 2048 + 1 * p.val = t.val * 2048 + p.val; omega
  | ⟨1, _⟩ => show win0_1.index t (1 : Fin 2) * 256 + 1 * d.val = d.val; omega

/-- Entry (p, q) of point `t`'s attribute block is entry (t·2048 + p, q) of the attribute array. -/
theorem attr_blk (c : Dev nD) (t : Fin cfg0.N) (p : Fin 2048) (q : Fin 32) (hr : t.val * 2048 + p.val < 131072) :
    (iblk m c 2 t : Vec Ideal S2048x32 .f32) (ix2 p q) = attrArr m c (ix2 ⟨t.val * 2048 + p.val, hr⟩ q) := by
  show V m c main_arg2 (((cfg0.win 2).blk t).view.emb (ix2 p q)) = V m c main_arg2 _
  refine congrArg (V m c main_arg2) ?_
  obtain ⟨e0, e1, e2, e3, e4, e5, e6, e7⟩ := idx_rows t
  funext a; apply Fin.ext
  match a with
  | ⟨0, _⟩ => show win0_2.index t (0 : Fin 2) * 2048 + 1 * p.val = t.val * 2048 + p.val; omega
  | ⟨1, _⟩ => show win0_2.index t (1 : Fin 2) * 32 + 1 * q.val = q.val; omega

/-- Entry (p, o) of point `t`'s output block sits at (t·2048 + p, o) of the output array. -/
theorem out_emb (t : Fin cfg0.N) (p : Fin 2048) (o : Fin 128) (hr : t.val * 2048 + p.val < 131072) :
    ((cfg0.win 21).blk t).view.emb (ix2 p o) = (ix2 ⟨t.val * 2048 + p.val, hr⟩ o : S131072x128.Idx) := by
  obtain ⟨e0, e1, e2, e3, e4, e5, e6, e7⟩ := idx_rows t
  funext a; apply Fin.ext
  match a with
  | ⟨0, _⟩ => show win0_21.index t (0 : Fin 2) * 2048 + 1 * p.val = t.val * 2048 + p.val; omega
  | ⟨1, _⟩ => show win0_21.index t (1 : Fin 2) * 128 + 1 * o.val = o.val; omega

/-! ## The weight windows: each is as large as its array and sits at block index zero at every point -/

/-- The block of a window whose block has its array's extents and whose block index is zero on every axis at every
    grid point (decided over the 64 points) is the array itself: entry `y` of the block is entry 0·extent + y. -/
local macro "whole_window " win:ident arr:term:max shp:ident rk:num pt:ident : tactic => `(tactic| (
    have hz : ∀ (t : Fin cfg0.N) (a : Fin $rk), ($win).index t a = 0 :=
      (by decide +kernel : ∀ (t : Fin grid0.N) (a : Fin $rk), _)
    funext y
    refine congrArg $arr (funext fun a => Fin.ext ?_)
    show ($win).index $pt a * ($shp).size a + 1 * (y a).val = (y a).val
    rw [hz $pt a, Nat.zero_mul, Nat.one_mul, Nat.zero_add]))

theorem blk3 (c : Dev nD) (t : Fin cfg0.N) : (iblk m c 3 t : Vec Ideal S256x256 .bf16) = V m c main_v6 := by
  whole_window win0_3 (V m c main_v6) S256x256 2 t
theorem blk4 (c : Dev nD) (t : Fin cfg0.N) : (iblk m c 4 t : Vec Ideal S256 .f32) = V m c main_arg4 := by
  whole_window win0_4 (V m c main_arg4) S256 1 t
theorem blk5 (c : Dev nD) (t : Fin cfg0.N) : (iblk m c 5 t : Vec Ideal S256x128 .bf16) = V m c main_v10 := by
  whole_window win0_5 (V m c main_v10) S256x128 2 t
theorem blk6 (c : Dev nD) (t : Fin cfg0.N) : (iblk m c 6 t : Vec Ideal S128 .f32) = V m c main_arg6 := by
  whole_window win0_6 (V m c main_arg6) S128 1 t
theorem blk7 (c : Dev nD) (t : Fin cfg0.N) : (iblk m c 7 t : Vec Ideal S256x256 .bf16) = V m c main_v7 := by
  whole_window win0_7 (V m c main_v7) S256x256 2 t
theorem blk8 (c : Dev nD) (t : Fin cfg0.N) : (iblk m c 8 t : Vec Ideal S256 .f32) = V m c main_arg8 := by
  whole_window win0_8 (V m c main_arg8) S256 1 t
theorem blk9 (c : Dev nD) (t : Fin cfg0.N) : (iblk m c 9 t : Vec Ideal S256x128 .bf16) = V m c main_v11 := by
  whole_window win0_9 (V m c main_v11) S256x128 2 t
theorem blk10 (c : Dev nD) (t : Fin cfg0.N) : (iblk m c 10 t : Vec Ideal S128 .f32) = V m c main_arg10 := by
  whole_window win0_10 (V m c main_arg10) S128 1 t
theorem blk11 (c : Dev nD) (t : Fin cfg0.N) : (iblk m c 11 t : Vec Ideal S256x256 .bf16) = V m c main_v8 := by
  whole_window win0_11 (V m c main_v8) S256x256 2 t
theorem blk12 (c : Dev nD) (t : Fin cfg0.N) : (iblk m c 12 t : Vec Ideal S256 .f32) = V m c main_arg12 := by
  whole_window win0_12 (V m c main_arg12) S256 1 t
theorem blk13 (c : Dev nD) (t : Fin cfg0.N) : (iblk m c 13 t : Vec Ideal S256x128 .bf16) = V m c main_v12 := by
  whole_window win0_13 (V m c main_v12) S256x128 2 t
theorem blk14 (c : Dev nD) (t : Fin cfg0.N) : (iblk m c 14 t : Vec Ideal S128 .f32) = V m c main_arg14 := by
  whole_window win0_14 (V m c main_arg14) S128 1 t
theorem blk15 (c : Dev nD) (t : Fin cfg0.N) : (iblk m c 15 t : Vec Ideal S256x256 .bf16) = V m c main_v9 := by
  whole_window win0_15 (V m c main_v9) S256x256 2 t
theorem blk16 (c : Dev nD) (t : Fin cfg0.N) : (iblk m c 16 t : Vec Ideal S256 .f32) = V m c main_arg16 := by
  whole_window win0_16 (V m c main_arg16) S256 1 t
theorem blk17 (c : Dev nD) (t : Fin cfg0.N) : (iblk m c 17 t : Vec Ideal S256x128 .bf16) = V m c main_v13 := by
  whole_window win0_17 (V m c main_v13) S256x128 2 t
theorem blk18 (c : Dev nD) (t : Fin cfg0.N) : (iblk m c 18 t : Vec Ideal S128 .f32) = V m c main_arg18 := by
  whole_window win0_18 (V m c main_arg18) S128 1 t
theorem blk19 (c : Dev nD) (t : Fin cfg0.N) : (iblk m c 19 t : Vec Ideal S545x128 .bf16) = V m c main_v14 := by
  whole_window win0_19 (V m c main_v14) S545x128 2 t
theorem blk20 (c : Dev nD) (t : Fin cfg0.N) : (iblk m c 20 t : Vec Ideal S128 .f32) = V m c main_arg20 := by
  whole_window win0_20 (V m c main_arg20) S128 1 t

/-! ## Zero offsets, however spelt -/

theorem zeros2 : (![0, 0] : Fin 2 → Nat) = fun _ => 0 := funext fun a => by fin_cases a <;> rfl
theorem zeros1 : (![0] : Fin 1 → Nat) = fun _ => 0 := funext fun a => by fin_cases a <;> rfl

/-! ## The blocks cover the array -/

/-- An index of the output array is in point `t`'s block iff each coordinate is in the block's range on its axis. -/
theorem mem_blk (t : Fin cfg0.N) (i : S131072x128.Idx) :
    i ∈ ((cfg0.win 21).blk t).view.set ↔ ∀ a : Fin 2, win0_21.index t a * S2048x128.size a ≤ (i a).val
      ∧ (i a).val < win0_21.index t a * S2048x128.size a + S2048x128.size a := by
  show i ∈ ((View.whole main_v15).slice (win0_21.rect t)).set ↔ _
  rw [View.set_slice_whole, Rect.mem_set_unit]
  exact Iff.rfl

/-- Row `r` lies in the block of point `r / 2048`. -/
theorem cover (i : S131072x128.Idx) :
    ∃ t : Fin cfg0.N, (cfg0.win 21).flush t = true ∧ i ∈ ((cfg0.win 21).blk t).view.set := by
  have hi0 : (i 0).val < 131072 := (i 0).isLt
  have hi1 : (i 1).val < 128 := (i 1).isLt
  have hq : (i 0).val / 2048 < 64 := by omega
  refine ⟨⟨(i 0).val / 2048, hq⟩, flush0_21 _, ?_⟩
  rw [mem_blk]
  obtain ⟨e0, e1, e2, e3, e4, e5, e6, e7⟩ := idx_rows ⟨(i 0).val / 2048, hq⟩
  have e0' : win0_21.index ⟨(i 0).val / 2048, hq⟩ (0 : Fin 2) = (i 0).val / 2048 := e0
  intro a
  match a with
  | ⟨0, _⟩ =>
    show win0_21.index ⟨(i 0).val / 2048, hq⟩ (0 : Fin 2) * 2048 ≤ (i 0).val
      ∧ (i 0).val < win0_21.index ⟨(i 0).val / 2048, hq⟩ (0 : Fin 2) * 2048 + 2048
    omega
  | ⟨1, _⟩ =>
    show win0_21.index ⟨(i 0).val / 2048, hq⟩ (1 : Fin 2) * 128 ≤ (i 1).val
      ∧ (i 1).val < win0_21.index ⟨(i 0).val / 2048, hq⟩ (1 : Fin 2) * 128 + 128
    omega

end Cert.KernelIdeal.Whole

end
-- ==== Proof.KernelArray.lean ====
/-
  The kernel's whole output array.

  Whatever blocks the body is given, entry (p, o) of the block it stores is the edge network's output `o` on row `p` of
  the three row blocks with the weight blocks as weights. At grid point `t` the row blocks are rows t·2048 + p of the
  feature and attribute arrays and the weight blocks are the weight arrays, so the point writes back rows t·2048 + p of
  ONE array-wide function; the blocks cover the array, so after the run the output array is that function.
-/
import proofs.«419241_j47699906789820_1_alg».proof.Proof.KernelBlocks

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block the body leaves in the output's staging buffer, entry (p, o), for any blocks: its one store covers the
    buffer, and what it stores there is the edge network on row `p`. -/
theorem out_entry (x0 x1 : Vec Ideal S2048x256 .f32) (x2 : Vec Ideal S2048x32 .f32)
    (x3 : Vec Ideal S256x256 .bf16) (x4 : Vec Ideal S256 .f32) (x5 : Vec Ideal S256x128 .bf16) (x6 : Vec Ideal S128 .f32)
    (x7 : Vec Ideal S256x256 .bf16) (x8 : Vec Ideal S256 .f32) (x9 : Vec Ideal S256x128 .bf16) (x10 : Vec Ideal S128 .f32)
    (x11 : Vec Ideal S256x256 .bf16) (x12 : Vec Ideal S256 .f32) (x13 : Vec Ideal S256x128 .bf16) (x14 : Vec Ideal S128 .f32)
    (x15 : Vec Ideal S256x256 .bf16) (x16 : Vec Ideal S256 .f32) (x17 : Vec Ideal S256x128 .bf16) (x18 : Vec Ideal S128 .f32)
    (x19 : Vec Ideal S545x128 .bf16) (x20 : Vec Ideal S128 .f32) (p : Fin 2048) (o : Fin 128) :
    out0_21 (F := Ideal) x0 x1 x2 x3 x4 x5 x6 x7 x8 x9 x10 x11 x12 x13 x14 x15 x16 x17 x18 x19 x20 (ix2 p o)
      = EdgeNet.out (Rows.params x3 x4 x5 x6 x7 x8 x9 x10 x11 x12 x13 x14 x15 x16 x17 x18 x19 x20) (EdgeNet.row x0 p) (EdgeNet.row x1 p) (EdgeNet.row x2 p) o := by
  unfold out0_21
  rw [View.canon_unit_zero zeros2]
  simp only [View.ld_unit_zero (S := S2048x256) zeros2, View.ld_unit_zero (S := S2048x32) zeros2,
    View.ld_unit_zero (S := S256x256) zeros2, View.ld_unit_zero (S := S256) zeros1,
    View.ld_unit_zero (S := S256x128) zeros2, View.ld_unit_zero (S := S128) zeros1,
    View.ld_unit_zero (S := S545x128) zeros2]
  exact Rows.payload_row x0 x1 x2 x3 x4 x5 x6 x7 x8 x9 x10 x11 x12 x13 x14 x15 x16 x17 x18 x19 x20 p o

/-- The same at any index of the block, by its coordinates. -/
theorem out_entry_idx (x0 x1 : Vec Ideal S2048x256 .f32) (x2 : Vec Ideal S2048x32 .f32)
    (x3 : Vec Ideal S256x256 .bf16) (x4 : Vec Ideal S256 .f32) (x5 : Vec Ideal S256x128 .bf16) (x6 : Vec Ideal S128 .f32)
    (x7 : Vec Ideal S256x256 .bf16) (x8 : Vec Ideal S256 .f32) (x9 : Vec Ideal S256x128 .bf16) (x10 : Vec Ideal S128 .f32)
    (x11 : Vec Ideal S256x256 .bf16) (x12 : Vec Ideal S256 .f32) (x13 : Vec Ideal S256x128 .bf16) (x14 : Vec Ideal S128 .f32)
    (x15 : Vec Ideal S256x256 .bf16) (x16 : Vec Ideal S256 .f32) (x17 : Vec Ideal S256x128 .bf16) (x18 : Vec Ideal S128 .f32)
    (x19 : Vec Ideal S545x128 .bf16) (x20 : Vec Ideal S128 .f32) (j : S2048x128.Idx) :
    out0_21 (F := Ideal) x0 x1 x2 x3 x4 x5 x6 x7 x8 x9 x10 x11 x12 x13 x14 x15 x16 x17 x18 x19 x20 j
      = EdgeNet.out (Rows.params x3 x4 x5 x6 x7 x8 x9 x10 x11 x12 x13 x14 x15 x16 x17 x18 x19 x20) (EdgeNet.row x0 ⟨(j 0).val, idx2_lt0 j⟩) (EdgeNet.row x1 ⟨(j 0).val, idx2_lt0 j⟩)
          (EdgeNet.row x2 ⟨(j 0).val, idx2_lt0 j⟩) ⟨(j 1).val, idx2_lt1 j⟩ := by
  obtain ⟨p, o, rfl⟩ : ∃ (p : Fin 2048) (o : Fin 128), j = ix2 p o := ⟨j 0, j 1, eq_ix2 j⟩
  exact out_entry x0 x1 x2 x3 x4 x5 x6 x7 x8 x9 x10 x11 x12 x13 x14 x15 x16 x17 x18 x19 x20 p o

/-! ## Congruences, over variables -/

/-- The edge network depends on its weights and rows only through their values. -/
theorem out_congr {P P' : EdgeNet.Params} {a a' b b' : Fin 256 → EReal} {e e' : Fin 32 → EReal}
    (hP : P = P') (ha : a = a') (hb : b = b') (he : e = e') (o : Fin 128) :
    EdgeNet.out P a b e o = EdgeNet.out P' a' b' e' o := by
  subst hP ha hb he; rfl

/-- Equal weight blocks give equal weights. -/
theorem params_congr {x3 y3 : Vec Ideal S256x256 .bf16} {x4 y4 : Vec Ideal S256 .f32} {x5 y5 : Vec Ideal S256x128 .bf16} {x6 y6 : Vec Ideal S128 .f32} {x7 y7 : Vec Ideal S256x256 .bf16} {x8 y8 : Vec Ideal S256 .f32} {x9 y9 : Vec Ideal S256x128 .bf16} {x10 y10 : Vec Ideal S128 .f32} {x11 y11 : Vec Ideal S256x256 .bf16} {x12 y12 : Vec Ideal S256 .f32} {x13 y13 : Vec Ideal S256x128 .bf16} {x14 y14 : Vec Ideal S128 .f32} {x15 y15 : Vec Ideal S256x256 .bf16} {x16 y16 : Vec Ideal S256 .f32} {x17 y17 : Vec Ideal S256x128 .bf16} {x18 y18 : Vec Ideal S128 .f32} {x19 y19 : Vec Ideal S545x128 .bf16} {x20 y20 : Vec Ideal S128 .f32}
    (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) :
    Rows.params x3 x4 x5 x6 x7 x8 x9 x10 x11 x12 x13 x14 x15 x16 x17 x18 x19 x20 = Rows.params y3 y4 y5 y6 y7 y8 y9 y10 y11 y12 y13 y14 y15 y16 y17 y18 y19 y20 := by
  subst h3 h4 h5 h6 h7 h8 h9 h10 h11 h12 h13 h14 h15 h16 h17 h18 h19 h20; rfl

/-- Entry (r, o) of the array-wide function. -/
theorem G_apply (c : Dev nD) (r : Fin 131072) (o : Fin 128) :
    G m c (ix2 r o) = EdgeNet.out (regionParams m c) (EdgeNet.row (srcArr m c) r) (EdgeNet.row (dstArr m c) r)
      (EdgeNet.row (attrArr m c) r) o := rfl

/-- Row `p` of point `t`'s source block is row t·2048 + p of the source array. -/
theorem src_row (c : Dev nD) (t : Fin cfg0.N) (p : Fin 2048) (hr : t.val * 2048 + p.val < 131072) :
    EdgeNet.row (iblk m c 0 t : Vec Ideal S2048x256 .f32) p = EdgeNet.row (srcArr m c) ⟨t.val * 2048 + p.val, hr⟩ :=
  funext fun d => src_blk m c t p d hr
/-- Row `p` of point `t`'s destination block is row t·2048 + p of the destination array. -/
theorem dst_row (c : Dev nD) (t : Fin cfg0.N) (p : Fin 2048) (hr : t.val * 2048 + p.val < 131072) :
    EdgeNet.row (iblk m c 1 t : Vec Ideal S2048x256 .f32) p = EdgeNet.row (dstArr m c) ⟨t.val * 2048 + p.val, hr⟩ :=
  funext fun d => dst_blk m c t p d hr
/-- Row `p` of point `t`'s attribute block is row t·2048 + p of the attribute array. -/
theorem attr_row (c : Dev nD) (t : Fin cfg0.N) (p : Fin 2048) (hr : t.val * 2048 + p.val < 131072) :
    EdgeNet.row (iblk m c 2 t : Vec Ideal S2048x32 .f32) p = EdgeNet.row (attrArr m c) ⟨t.val * 2048 + p.val, hr⟩ :=
  funext fun q => attr_blk m c t p q hr

/-! ## What a point writes back -/

set_option maxRecDepth 16384 in
/-- Entry (p, o) of what the body leaves at point `t` is entry (t·2048 + p, o) of `G`. -/
theorem flushed_entry (c : Dev nD) (t : Fin cfg0.N) (p : Fin 2048) (o : Fin 128) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p o)
      = G m c (((cfg0.win 21).blk t).view.emb (ix2 p o)) := by
  have ht : t.val < 64 := t.isLt
  have hr : t.val * 2048 + p.val < 131072 := by have := p.isLt; omega
  rw [out_emb t p o hr]
  exact ((out_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p o).trans
    (out_congr (params_congr (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t)) (src_row m c t p hr) (dst_row m c t p hr) (attr_row m c t p hr) o)).trans
    (G_apply m c ⟨t.val * 2048 + p.val, hr⟩ o).symm

set_option maxRecDepth 16384 in
/-- The same at an index `y` of the window's own block: the body's entry at `y` is `G` where `y` sits in the array. -/
theorem flushed_entry_at (c : Dev nD) (t : Fin cfg0.N) (y : ((cfg0.win 21).xblock (grid0.coords t)).Idx) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) ((cfg0.win 21).xinj (grid0.coords t) y)
      = G m c (((cfg0.win 21).blk t).view.emb y) := by
  have ht : t.val < 64 := t.isLt
  have hy0 : (y 0).val < 2048 := (y 0).isLt
  have hy1 : (y 1).val < 128 := (y 1).isLt
  have hr : t.val * 2048 + (y 0).val < 131072 := by omega
  have hx : (cfg0.win 21).xinj (grid0.coords t) y = (ix2 ⟨(y 0).val, hy0⟩ ⟨(y 1).val, hy1⟩ : S2048x128.Idx) :=
    funext fun a => by match a with | ⟨0, _⟩ => rfl | ⟨1, _⟩ => rfl
  have he : ((cfg0.win 21).blk t).view.emb y = (ix2 ⟨t.val * 2048 + (y 0).val, hr⟩ ⟨(y 1).val, hy1⟩ : S131072x128.Idx) := by
    obtain ⟨e0, e1, e2, e3, e4, e5, e6, e7⟩ := idx_rows t
    funext a; apply Fin.ext
    match a with
    | ⟨0, _⟩ => show win0_21.index t (0 : Fin 2) * 2048 + 1 * (y 0).val = t.val * 2048 + (y 0).val; omega
    | ⟨1, _⟩ => show win0_21.index t (1 : Fin 2) * 128 + 1 * (y 1).val = (y 1).val; omega
  rw [hx, he]
  exact (flushed_entry m c t ⟨(y 0).val, hy0⟩ ⟨(y 1).val, hy1⟩).trans
    (congrArg (G m c) (out_emb t ⟨(y 0).val, hy0⟩ ⟨(y 1).val, hy1⟩ hr))

set_option maxRecDepth 16384 in
/-- Point `t` writes back its block of `G`: rows t·2048 + p of the array-wide function. -/
theorem flushed_eq (c : Dev nD) (t : Fin cfg0.N) :
    (dats m 0 c).flushed 21 t = ((cfg0.win 21).blk t).view.read (Elt Ideal) (G m c) := by
  rw [flushed21]
  funext y
  rw [View.read_apply]
  simp only [cast_eq]
  exact flushed_entry_at m c t y

/-! ## The array after the run -/

/-- After the run the output array is `G` everywhere. -/
theorem final (c : Dev nD) : (dats m 0 c).arrAt 21 cfg0.N = G m c :=
  (dats m 0 c).arrAt_eq_of_cover 21 (G m c) (fun t _ => flushed_eq m c t) cover

end Cert.KernelIdeal.Whole

end
-- ==== Proof.KernelInputs.lean ====
/-
  What the kernel's one region finds in the arrays the host wrote before it.

  The host takes the source rows and the destination rows of every edge out of the node features. It wraps a negative
  index by adding the number of nodes, 65536, and keeps a row only where the wrapped index lies in [0, 65535], filling
  the others with a stand-in; the reference wraps the same way and reads the row at the wrapped index. When every edge
  index lies in [-65536, 65536) the wrapped index always lies in [0, 65535], the mask is all ones, and the two taken
  arrays are the reference's two gathered arrays. The weight matrices the host hands the region are the arguments with
  their format changed, which is the identity on extended reals.
-/
import proofs.«419241_j47699906789820_1_alg».proof.Defs
import proofs.«419241_j47699906789820_1_alg».proof.Proof.Gen.KernelIdeal.Frame
import proofs.«419241_j47699906789820_1_alg».proof.Proof.Gen.ReferenceIdeal.Read
import proofs.«419241_j47699906789820_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.WordArith
import Idealize.ShloMosaic.Lib.ValueIdx

noncomputable section

namespace Cert.KernelIdeal.Inputs

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## One wrapped index -/

/-- An index in [-65536, 65536), wrapped by adding 65536 where it is negative, lies in [0, 65535]: the two comparisons
    the host makes of it both hold. -/
private theorem wrap_in_range (v : BitVec 32) (h1 : -65536 ≤ v.toInt) (h2 : v.toInt < 65536) :
    IntOp.andi (IntOp.cmpi .sge (Scalar.select (IntOp.cmpi .slt v 0#32) (IntOp.addi v 65536#32) v) 0#32)
      (IntOp.cmpi .sle (Scalar.select (IntOp.cmpi .slt v 0#32) (IntOp.addi v 65536#32) v) 65535#32) = 1#1 := by
  have h0 : (0#32 : BitVec 32).toInt = 0 := by decide
  have hN : (65536#32 : BitVec 32).toInt = 65536 := by decide
  have hM : (65535#32 : BitVec 32).toInt = 65535 := by decide
  by_cases hneg : v.toInt < 0
  · have hc : IntOp.cmpi .slt v 0#32 = 1#1 := by
      unfold IntOp.cmpi
      rw [WordArith.ofBool_eq_one_iff]
      simp only [BitVec.slt, h0, decide_eq_true_eq]
      exact hneg
    have hs : (IntOp.addi v 65536#32).toInt = v.toInt + 65536 := by
      unfold IntOp.addi
      rw [WordArith.toInt_add_of_bounds v 65536#32 (by rw [hN]; omega) (by rw [hN]; omega), hN]
    rw [hc, select_one]
    unfold IntOp.cmpi
    rw [WordArith.andi_ofBool, WordArith.ofBool_eq_one_iff]
    simp only [BitVec.sle, h0, hM, hs, Bool.and_eq_true, decide_eq_true_eq]
    omega
  · have hc : IntOp.cmpi .slt v 0#32 = 0#1 := by
      apply eq_zero_of_ne_one
      unfold IntOp.cmpi
      rw [WordArith.ofBool_eq_one_iff]
      simp only [BitVec.slt, h0, decide_eq_true_eq]
      exact hneg
    rw [hc, select_zero]
    unfold IntOp.cmpi
    rw [WordArith.andi_ofBool, WordArith.ofBool_eq_one_iff]
    simp only [BitVec.sle, h0, hM, Bool.and_eq_true, decide_eq_true_eq]
    omega

/-! ## A reduction by `and` of an all-ones mask -/

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduce by `and` from an initial value 1 of a mask that is 1 everywhere is 1 everywhere. -/
private theorem reduce_andi_of_all {s t u : Shape} {axes : List (Fin s.rank)} (x : s.Idx → BitVec 1)
    (init : u.Idx → BitVec 1) (h : s.ReducesTo axes t) (hu : 0 < u.numel) (hinit : ∀ k, init k = 1#1)
    (hx : ∀ i, x i = 1#1) (j : t.Idx) : Host.reduce IntOp.andi x init h hu j = 1#1 := by
  rw [Host.reduce_eq_foldl, hinit]
  exact foldl_andi_one x _ (fun n _ => hx n)

/-! ## The masked take is the gather when every wrapped index is in range -/

/-- Where every entry of the index column `w` lies in [0, 65535], the host's mask (the two comparisons, their `and`, its
    reduction over the unit axis, broadcast along the rows) is all ones, and selecting by it returns the gathered rows. -/
private theorem masked_take_eq {α : Type}
    (hb2 : S_.BroadcastsInDim S131072x1 (![] : Fin 0 → Fin S131072x1.rank))
    (hb3 : S1.BroadcastsInDim S1x1 (![1] : Fin 1 → Fin S1x1.rank))
    (hb4 : S1x1.BroadcastsInDim S131072x1 (![0, 1] : Fin 2 → Fin S131072x1.rank))
    (hr : S131072x1.ReducesTo [1] S131072) (hu : 0 < S_.numel)
    (hb5 : S131072.BroadcastsInDim S131072x256 (![0] : Fin 1 → Fin S131072x256.rank))
    (w : IVec S131072x1 32) (g fill : S131072x256.Idx → α)
    (hw : ∀ i, IntOp.andi (IntOp.cmpi .sge (w i) 0#32) (IntOp.cmpi .sle (w i) 65535#32) = 1#1) :
    select (broadcastInDim S131072x256 ![0] hb5
        (Host.reduce IntOp.andi
          (andi (cmpi .sge w (broadcastInDim S131072x1 ![] hb2 (constantI S_ 32 0#32)))
            (cmpi .sle w (broadcastInDim S131072x1 ![0, 1] hb4 (broadcastInDim S1x1 ![1] hb3 (constantI S1 32 65535#32)))))
          (constantI S_ 1 1#1) hr hu)) g fill = g := by
  funext i
  rw [select_apply]
  have hk : broadcastInDim S131072x256 ![0] hb5
        (Host.reduce IntOp.andi
          (andi (cmpi .sge w (broadcastInDim S131072x1 ![] hb2 (constantI S_ 32 0#32)))
            (cmpi .sle w (broadcastInDim S131072x1 ![0, 1] hb4 (broadcastInDim S1x1 ![1] hb3 (constantI S1 32 65535#32)))))
          (constantI S_ 1 1#1) hr hu) i = 1#1 := by
    unfold broadcastInDim
    exact reduce_andi_of_all _ _ hr hu (fun _ => rfl) (fun i' => hw i') _
  rw [hk, select_one]

/-- The wrapped index column of an index array: 65536 added where the index is negative, as an [n, 1] array. Every
    entry lies in [0, 65535] when every index lies in [-65536, 65536). -/
private theorem wrapped_in_range
    (hb0 : S_.BroadcastsInDim S131072 (![] : Fin 0 → Fin S131072.rank))
    (hb1 : S131072.BroadcastsInDim S131072x1 (![0] : Fin 1 → Fin S131072x1.rank))
    (idx : IVec S131072 32) (hidx : ∀ k, -65536 ≤ (idx k).toInt ∧ (idx k).toInt < 65536) (i : S131072x1.Idx) :
    IntOp.andi
      (IntOp.cmpi .sge (broadcastInDim S131072x1 ![0] hb1
        (select (cmpi .slt idx (broadcastInDim S131072 ![] hb0 (constantI S_ 32 0#32)))
          (addi idx (broadcastInDim S131072 ![] hb0 (constantI S_ 32 65536#32))) idx) i) 0#32)
      (IntOp.cmpi .sle (broadcastInDim S131072x1 ![0] hb1
        (select (cmpi .slt idx (broadcastInDim S131072 ![] hb0 (constantI S_ 32 0#32)))
          (addi idx (broadcastInDim S131072 ![] hb0 (constantI S_ 32 65536#32))) idx) i) 65535#32) = 1#1 := by
  unfold broadcastInDim
  exact wrap_in_range _ (hidx _).1 (hidx _).2

/-! ## The precondition read at one entry of the edge array -/

/-- The shape of rank zero has one index. -/
private instance subsingleton_scalarIdx : Subsingleton (⟨0, ![]⟩ : Shape).Idx := ⟨fun _ _ => funext fun d => d.elim0⟩

/-- Under the precondition every entry of the edge array lies in [-65536, 65536). -/
private theorem index_range (hpre : Cert.Pre_KernelIdeal m) (c : Dev nD) (i : S2x131072.Idx) :
    -65536 ≤ ((m ((c : Thread nD τ).loc main_arg1) : S2x131072.Idx → BitVec 32) i).toInt ∧
      ((m ((c : Thread nD τ).loc main_arg1) : S2x131072.Idx → BitVec 32) i).toInt < 65536 := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  have h2 := (IntOp.andi_eq_one.1 h).2
  have h3 := Host.reduce_andi_all _ _ _ _ _ h2 i
  obtain ⟨ha, hb⟩ := IntOp.andi_eq_one.1 h3
  have hlo : (4294901760#32 : BitVec 32).toInt = -65536 := by decide
  have hhi : (65536#32 : BitVec 32).toInt = 65536 := by decide
  constructor
  · have ha' : IntOp.cmpi .sge ((m ((c : Thread nD τ).loc main_arg1) : S2x131072.Idx → BitVec 32) i) 4294901760#32 = 1#1 := ha
    unfold IntOp.cmpi at ha'
    rw [WordArith.ofBool_eq_one_iff] at ha'
    simp only [BitVec.sle, hlo, decide_eq_true_eq] at ha'
    exact ha'
  · have hb' : IntOp.cmpi .slt ((m ((c : Thread nD τ).loc main_arg1) : S2x131072.Idx → BitVec 32) i) 65536#32 = 1#1 := hb
    unfold IntOp.cmpi at hb'
    rw [WordArith.ofBool_eq_one_iff] at hb'
    simp only [BitVec.slt, hhi, decide_eq_true_eq] at hb'
    exact hb'

/-! ## The two taken arrays -/

/-- Reads a buffer the region finds as the term the host operations before it wrote there. -/
local macro "read_V" : tactic =>
  `(tactic| (dsimp only [Gen.V]
             simp only [Gen.hostOps0, Gen.hostOps0_1, Gen.hostOps0_2, Gen.hostOps0_3, List.flatten_cons, List.flatten_nil,
               List.append_nil, List.cons_append, List.nil_append]
             after_results_simp))

set_option maxRecDepth 16384 in
/-- Under the precondition the source rows the region finds are the reference's gathered source rows. -/
theorem src_rows (hpre : Cert.Pre_KernelIdeal m) (c : Dev nD) :
    (V m c main_v4 : S131072x256.Idx → EReal)
      = Cert.ReferenceIdeal.Read.val_main_v8 (F := Ideal) (m ((c : Thread nD τ).loc main_arg0)) (m ((c : Thread nD τ).loc main_arg1)) := by
  have e : (V m c main_v4 : S131072x256.Idx → EReal)
      = (select (broadcastInDim S131072x256 ![0] bcast_S131072_S131072x256_0
          (Host.reduce IntOp.andi
            (andi
              (cmpi .sge (Cert.ReferenceIdeal.Read.val_main_v7 (F := Ideal) (m ((c : Thread nD τ).loc main_arg1)))
                (broadcastInDim S131072x1 ![] bcast_S_S131072x1 (constantI S_ 32 0#32)))
              (cmpi .sle (Cert.ReferenceIdeal.Read.val_main_v7 (F := Ideal) (m ((c : Thread nD τ).loc main_arg1)))
                (broadcastInDim S131072x1 ![0, 1] bcast_S1x1_S131072x1_0_1
                  (broadcastInDim S1x1 ![1] bcast_S1_S1x1_1 (constantI S1 32 65535#32)))))
            (constantI S_ 1 1#1) reducesTo_S131072x1_S131072_d1 h_S_))
        (Cert.ReferenceIdeal.Read.val_main_v8 (F := Ideal) (m ((c : Thread nD τ).loc main_arg0)) (m ((c : Thread nD τ).loc main_arg1)))
        (broadcastInDim S131072x256 ![] bcast_S_S131072x256 (constant (F := Ideal) S_ .f32 0x7FC00000#32))
          : S131072x256.Idx → EReal) := by
    read_V
    simp only [cast_eq]
    rfl
  rw [e]
  refine masked_take_eq _ _ _ _ _ _ _ _ _ (fun i => ?_)
  refine wrapped_in_range Cert.ReferenceIdeal.Gen.bcast_S_S131072 Cert.ReferenceIdeal.Gen.bcast_S131072_S131072x1_0
    (Cert.ReferenceIdeal.Read.val_main_v1 (F := Ideal) (m ((c : Thread nD τ).loc main_arg1))) (fun k => ?_) i
  rw [Cert.ReferenceIdeal.Read.val_main_v1_apply, Cert.ReferenceIdeal.Read.val_main_v0_apply]
  exact index_range m hpre c _

set_option maxRecDepth 16384 in
/-- Under the precondition the destination rows the region finds are the reference's gathered destination rows. -/
theorem dst_rows (hpre : Cert.Pre_KernelIdeal m) (c : Dev nD) :
    (V m c main_v5 : S131072x256.Idx → EReal)
      = Cert.ReferenceIdeal.Read.val_main_v17 (F := Ideal) (m ((c : Thread nD τ).loc main_arg0)) (m ((c : Thread nD τ).loc main_arg1)) := by
  have e : (V m c main_v5 : S131072x256.Idx → EReal)
      = (select (broadcastInDim S131072x256 ![0] bcast_S131072_S131072x256_0
          (Host.reduce IntOp.andi
            (andi
              (cmpi .sge (Cert.ReferenceIdeal.Read.val_main_v16 (F := Ideal) (m ((c : Thread nD τ).loc main_arg1)))
                (broadcastInDim S131072x1 ![] bcast_S_S131072x1 (constantI S_ 32 0#32)))
              (cmpi .sle (Cert.ReferenceIdeal.Read.val_main_v16 (F := Ideal) (m ((c : Thread nD τ).loc main_arg1)))
                (broadcastInDim S131072x1 ![0, 1] bcast_S1x1_S131072x1_0_1
                  (broadcastInDim S1x1 ![1] bcast_S1_S1x1_1 (constantI S1 32 65535#32)))))
            (constantI S_ 1 1#1) reducesTo_S131072x1_S131072_d1 h_S_))
        (Cert.ReferenceIdeal.Read.val_main_v17 (F := Ideal) (m ((c : Thread nD τ).loc main_arg0)) (m ((c : Thread nD τ).loc main_arg1)))
        (broadcastInDim S131072x256 ![] bcast_S_S131072x256 (constant (F := Ideal) S_ .f32 0x7FC00000#32))
          : S131072x256.Idx → EReal) := by
    read_V
    simp only [cast_eq]
    rfl
  rw [e]
  refine masked_take_eq _ _ _ _ _ _ _ _ _ (fun i => ?_)
  refine wrapped_in_range Cert.ReferenceIdeal.Gen.bcast_S_S131072 Cert.ReferenceIdeal.Gen.bcast_S131072_S131072x1_0
    (Cert.ReferenceIdeal.Read.val_main_v10 (F := Ideal) (m ((c : Thread nD τ).loc main_arg1))) (fun k => ?_) i
  rw [Cert.ReferenceIdeal.Read.val_main_v10_apply, Cert.ReferenceIdeal.Read.val_main_v9_apply]
  exact index_range m hpre c _

/-! ## The weight arrays -/

/-- The W1a array the region finds is the argument: its change of format is the identity on extended reals. -/
theorem weight_W1a (c : Dev nD) :
    (V m c main_v6 : S256x256.Idx → EReal) = (m ((c : Thread nD τ).loc main_arg3) : S256x256.Idx → EReal) := by
  read_V
  rfl

/-- The W2a array the region finds is the argument: its change of format is the identity on extended reals. -/
theorem weight_W2a (c : Dev nD) :
    (V m c main_v7 : S256x256.Idx → EReal) = (m ((c : Thread nD τ).loc main_arg7) : S256x256.Idx → EReal) := by
  read_V
  rfl

/-- The W3a array the region finds is the argument: its change of format is the identity on extended reals. -/
theorem weight_W3a (c : Dev nD) :
    (V m c main_v8 : S256x256.Idx → EReal) = (m ((c : Thread nD τ).loc main_arg11) : S256x256.Idx → EReal) := by
  read_V
  rfl

/-- The W4a array the region finds is the argument: its change of format is the identity on extended reals. -/
theorem weight_W4a (c : Dev nD) :
    (V m c main_v9 : S256x256.Idx → EReal) = (m ((c : Thread nD τ).loc main_arg15) : S256x256.Idx → EReal) := by
  read_V
  rfl

/-- The W1b array the region finds is the argument: its change of format is the identity on extended reals. -/
theorem weight_W1b (c : Dev nD) :
    (V m c main_v10 : S256x128.Idx → EReal) = (m ((c : Thread nD τ).loc main_arg5) : S256x128.Idx → EReal) := by
  read_V
  rfl

/-- The W2b array the region finds is the argument: its change of format is the identity on extended reals. -/
theorem weight_W2b (c : Dev nD) :
    (V m c main_v11 : S256x128.Idx → EReal) = (m ((c : Thread nD τ).loc main_arg9) : S256x128.Idx → EReal) := by
  read_V
  rfl

/-- The W3b array the region finds is the argument: its change of format is the identity on extended reals. -/
theorem weight_W3b (c : Dev nD) :
    (V m c main_v12 : S256x128.Idx → EReal) = (m ((c : Thread nD τ).loc main_arg13) : S256x128.Idx → EReal) := by
  read_V
  rfl

/-- The W4b array the region finds is the argument: its change of format is the identity on extended reals. -/
theorem weight_W4b (c : Dev nD) :
    (V m c main_v13 : S256x128.Idx → EReal) = (m ((c : Thread nD τ).loc main_arg17) : S256x128.Idx → EReal) := by
  read_V
  rfl

/-- The Wf array the region finds is the argument: its change of format is the identity on extended reals. -/
theorem weight_Wf (c : Dev nD) :
    (V m c main_v14 : S545x128.Idx → EReal) = (m ((c : Thread nD τ).loc main_arg19) : S545x128.Idx → EReal) := by
  read_V
  rfl

end Cert.KernelIdeal.Inputs

end
-- ==== Proof.RefRows.lean ====
/-
  One row of the reference's result.

  The reference gathers the source and destination rows of every edge, then applies row-wise operations only (matrix
  products against the weight matrices, biases laid along the rows, the positive part, sums along a row, a column laid
  across a row, joinings of columns, the hyperbolic tangent). So entry (e, o) of its result is the edge network's output
  `o` on row `e` of the two gathered arrays and of the attribute array.
-/
import proofs.«419241_j47699906789820_1_alg».proof.Proof.Gen.ReferenceIdeal.Read
import proofs.«419241_j47699906789820_1_alg».proof.Proof.Spec
import proofs.«419241_j47699906789820_1_alg».proof.Proof.LibPlainDot
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx

/-- The weights as the reference's arguments, in argument order. -/
def params (x3 : FVec Ideal S256x256 .f32) (x4 : FVec Ideal S256 .f32) (x5 : FVec Ideal S256x128 .f32) (x6 : FVec Ideal S128 .f32)
    (x7 : FVec Ideal S256x256 .f32) (x8 : FVec Ideal S256 .f32) (x9 : FVec Ideal S256x128 .f32) (x10 : FVec Ideal S128 .f32)
    (x11 : FVec Ideal S256x256 .f32) (x12 : FVec Ideal S256 .f32) (x13 : FVec Ideal S256x128 .f32) (x14 : FVec Ideal S128 .f32)
    (x15 : FVec Ideal S256x256 .f32) (x16 : FVec Ideal S256 .f32) (x17 : FVec Ideal S256x128 .f32) (x18 : FVec Ideal S128 .f32)
    (x19 : FVec Ideal S545x128 .f32) (x20 : FVec Ideal S128 .f32) : EdgeNet.Params :=
  ⟨x3, x4, x5, x6, x7, x8, x9, x10, x11, x12, x13, x14, x15, x16, x17, x18, x19, x20⟩

/-- A bias vector laid along every row: entry (r, j) is the bias's entry j. -/
theorem bias_apply {α : Type} {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (r : Fin M) (j : Fin N) :
    broadcastInDim ⟨2, ![M, N]⟩ ![0, 1] h2 (broadcastInDim ⟨2, ![1, N]⟩ ![1] h1 b) (ix2 r j) = b (ix1 j) := by
  refine (broadcastInDim_apply _ h2 _ (ix2 r j) (ix2 (0 : Fin 1) j) (fun a => ?_)).trans ?_
  · match a with
    | ⟨0, _⟩ => show 0 = if (1 : Nat) = 1 then 0 else _; rw [if_pos rfl]
    | ⟨1, _⟩ =>
      show j.val = if N = 1 then 0 else j.val
      split
      · have := j.isLt; omega
      · rfl
  · refine broadcastInDim_apply _ h1 b (ix2 (0 : Fin 1) j) (ix1 j) (fun a => ?_)
    match a with
    | ⟨0, _⟩ =>
      show j.val = if N = 1 then 0 else j.val
      split
      · have := j.isLt; omega
      · rfl

/-- An affine layer at (r, j). -/
theorem lin_apply {M K N : Nat} (d : DotDims ⟨2, ![M, K]⟩ ⟨2, ![K, N]⟩ ⟨2, ![M, N]⟩) (hd : PlainDot.IsPlain d)
    (h1 : (⟨1, ![N]⟩ : Shape).BroadcastsInDim ⟨2, ![1, N]⟩ ![1])
    (h2 : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨1, ![N]⟩ .f32)
    (r : Fin M) (j : Fin N) :
    addf (Host.dotGeneral d none X W) (broadcastInDim ⟨2, ![M, N]⟩ ![0, 1] h2 (broadcastInDim ⟨2, ![1, N]⟩ ![1] h1 b)) (ix2 r j)
      = EdgeNet.lin (EdgeNet.row X r) W b j := by
  rw [addf_apply, bias_apply]
  simp only [Host.dotGeneral]
  rw [PlainDot.dotGeneral_apply d hd]
  rfl

/-- One affine layer followed by the positive part, at (r, j). -/
theorem layer_apply {M K N : Nat} (d : DotDims ⟨2, ![M, K]⟩ ⟨2, ![K, N]⟩ ⟨2, ![M, N]⟩) (hd : PlainDot.IsPlain d)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (X : FVec Ideal ⟨2, ![M, K]⟩ .f32) (W : FVec Ideal ⟨2, ![K, N]⟩ .f32) (b : FVec Ideal ⟨1, ![N]⟩ .f32)
    (r : Fin M) (j : Fin N) :
    maximumf (addf (Host.dotGeneral d none X W) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 r j)
      = EdgeNet.relu (EdgeNet.lin (EdgeNet.row X r) W b j) := by
  rw [maximumf_apply, lin_apply d hd, broadcastInDim_scalar_apply, constant_apply, Ideal.ofBits_zero_f32]
  rfl

/-- A two-layer perceptron at (r, j). -/
theorem mlp_apply {M : Nat}
    (d1 : DotDims ⟨2, ![M, 256]⟩ ⟨2, ![256, 256]⟩ ⟨2, ![M, 256]⟩) (hd1 : PlainDot.IsPlain d1)
    (d2 : DotDims ⟨2, ![M, 256]⟩ ⟨2, ![256, 128]⟩ ⟨2, ![M, 128]⟩) (hd2 : PlainDot.IsPlain d2)
    (h1a : (⟨1, ![256]⟩ : Shape).BroadcastsInDim ⟨2, ![1, 256]⟩ ![1])
    (h2a : (⟨2, ![1, 256]⟩ : Shape).BroadcastsInDim ⟨2, ![M, 256]⟩ ![0, 1])
    (h0a : (⟨0, ![]⟩ : Shape).BroadcastsInDim ⟨2, ![M, 256]⟩ ![])
    (h1b : (⟨1, ![128]⟩ : Shape).BroadcastsInDim ⟨2, ![1, 128]⟩ ![1])
    (h2b : (⟨2, ![1, 128]⟩ : Shape).BroadcastsInDim ⟨2, ![M, 128]⟩ ![0, 1])
    (h0b : (⟨0, ![]⟩ : Shape).BroadcastsInDim ⟨2, ![M, 128]⟩ ![])
    (X : FVec Ideal ⟨2, ![M, 256]⟩ .f32) (Wa : FVec Ideal ⟨2, ![256, 256]⟩ .f32) (ba : FVec Ideal ⟨1, ![256]⟩ .f32)
    (Wb : FVec Ideal ⟨2, ![256, 128]⟩ .f32) (bb : FVec Ideal ⟨1, ![128]⟩ .f32) (r : Fin M) (j : Fin 128) :
    maximumf (addf (Host.dotGeneral d2 none
          (maximumf (addf (Host.dotGeneral d1 none X Wa) (broadcastInDim ⟨2, ![M, 256]⟩ ![0, 1] h2a (broadcastInDim ⟨2, ![1, 256]⟩ ![1] h1a ba)))
            (broadcastInDim ⟨2, ![M, 256]⟩ ![] h0a (constant (F := Ideal) ⟨0, ![]⟩ .f32 0x00000000#32))) Wb)
          (broadcastInDim ⟨2, ![M, 128]⟩ ![0, 1] h2b (broadcastInDim ⟨2, ![1, 128]⟩ ![1] h1b bb)))
        (broadcastInDim ⟨2, ![M, 128]⟩ ![] h0b (constant (F := Ideal) ⟨0, ![]⟩ .f32 0x00000000#32)) (ix2 r j)
      = EdgeNet.mlp (EdgeNet.row X r) Wa ba Wb bb j := by
  rw [layer_apply d2 hd2]
  unfold EdgeNet.mlp
  refine congrArg EdgeNet.relu (congrArg (fun h => EdgeNet.lin h Wb bb j) (funext fun q => ?_))
  exact layer_apply d1 hd1 h1a h2a h0a X Wa ba r q

/-- The first perceptron at (e, j): the perceptron on row e of the source rows. -/
theorem v27_row (x0 : FVec Ideal S65536x256 .f32) (x1 : IVec S2x131072 32)
    (x3 : FVec Ideal S256x256 .f32) (x4 : FVec Ideal S256 .f32) (x5 : FVec Ideal S256x128 .f32) (x6 : FVec Ideal S128 .f32)
    (e : Fin 131072) (j : Fin 128) :
    val_main_v27 (F := Ideal) x0 x1 x3 x4 x5 x6 (ix2 e j)
      = EdgeNet.mlp (EdgeNet.row (val_main_v8 (F := Ideal) x0 x1) e) x3 x4 x5 x6 j := by
  unfold val_main_v27 val_main_v26 val_main_v25 val_main_v24 val_main_v23 val_main_v22 val_main_v21 val_main_v20 val_main_v19
    val_main_v18 val_main_call1_v0 val_main_call1_cst val_main_call0_v0 val_main_call0_cst
  generalize val_main_v8 (F := Ideal) x0 x1 = xs
  exact mlp_apply (M := 131072) _ ⟨rfl, rfl, rfl, rfl, rfl, rfl⟩ _ ⟨rfl, rfl, rfl, rfl, rfl, rfl⟩ _ _ _ _ _ _ xs x3 x4 x5 x6 e j

/-- A row sum from the zero word, at row r. -/
theorem rowsum_apply (X : FVec Ideal S131072x256 .f32) (r : Fin 131072) :
    Host.reduceAdd X (constant (F := Ideal) S_ .f32 0x00000000#32) reducesTo_S131072x256_S131072_d1 h_S_ (ix1 r)
      = ∑ k : Fin 256, X (ix2 r k) := by
  simp only [Host.reduceAdd, Ideal.hostReduceAdd_def]
  rw [Ideal.hostReduceAdd_single reducesTo_S131072x256_S131072_d1 (by decide), constant_apply, Ideal.ofBits_zero_f32, zero_add]
  refine Finset.sum_congr rfl fun k _ => ?_
  exact congrArg X (funext fun a => Fin.ext (by match a with | ⟨0, _⟩ => rfl | ⟨1, _⟩ => rfl))

/-- A vector kept as a column: entry (r, 0) is the vector's entry r. -/
theorem col_apply {α : Type} (v : S131072.Idx → α) (r : Fin 131072) (z : Fin 1) :
    broadcastInDim S131072x1 ![0] bcast_S131072_S131072x1_0 v (ix2 r z) = v (ix1 r) := by
  refine broadcastInDim_apply _ bcast_S131072_S131072x1_0 v (ix2 r z) (ix1 r) (fun a => ?_)
  match a with
  | ⟨0, _⟩ => show r.val = if (131072 : Nat) = 1 then 0 else r.val; rw [if_neg (by decide)]

/-- A column laid across a row: entry (r, c) is the column's entry (r, 0). -/
theorem colrow_apply {α : Type} (v : S131072x1.Idx → α) (r : Fin 131072) (c : Fin 256) :
    broadcastInDim S131072x256 ![0, 1] bcast_S131072x1_S131072x256_0_1 v (ix2 r c) = v (ix2 r (0 : Fin 1)) := by
  refine broadcastInDim_apply _ bcast_S131072x1_S131072x256_0_1 v (ix2 r c) (ix2 r (0 : Fin 1)) (fun a => ?_)
  match a with
  | ⟨0, _⟩ => show r.val = if (131072 : Nat) = 1 then 0 else r.val; rw [if_neg (by decide)]
  | ⟨1, _⟩ => show 0 = if (1 : Nat) = 1 then 0 else c.val; rw [if_pos rfl]

/-- The host's square root at an index. -/
theorem hostSqrt_apply {s : Shape} {φ : FTy} (a : FVec Ideal s φ) (i : s.Idx) : Host.sqrt a i = Ideal.sqrt (a i) := rfl

/-- The host's hyperbolic tangent at an index. -/
theorem hostTanh_apply {s : Shape} {φ : FTy} (a : FVec Ideal s φ) (i : s.Idx) : Host.tanh a i = Ideal.tanh (a i) := rfl

/-- The clipped Euclidean norm of row r, kept as a column. -/
theorem norm_apply (X : FVec Ideal S131072x256 .f32) (r : Fin 131072) (z : Fin 1) :
    maximumf (Host.sqrt (broadcastInDim S131072x1 ![0] bcast_S131072_S131072x1_0
          (Host.reduceAdd (mulf X X) (constant (F := Ideal) S_ .f32 0x00000000#32) reducesTo_S131072x256_S131072_d1 h_S_)))
        (broadcastInDim S131072x1 ![] bcast_S_S131072x1 (constant (F := Ideal) S_ .f32 0x322BCC77#32)) (ix2 r z)
      = EdgeNet.norm (EdgeNet.row X r) := by
  rw [maximumf_apply, broadcastInDim_scalar_apply, constant_apply, hostSqrt_apply, col_apply, rowsum_apply]
  rfl

/-- The cosine's sum at row r, kept as a column, from the two norm columns. -/
theorem cosine_apply (X Y : FVec Ideal S131072x256 .f32) (NX NY : FVec Ideal S131072x1 .f32) (r : Fin 131072) (z : Fin 1) :
    broadcastInDim S131072x1 ![0] bcast_S131072_S131072x1_0
        (Host.reduceAdd (mulf (Host.divf X (broadcastInDim S131072x256 ![0, 1] bcast_S131072x1_S131072x256_0_1 NX))
            (Host.divf Y (broadcastInDim S131072x256 ![0, 1] bcast_S131072x1_S131072x256_0_1 NY)))
          (constant (F := Ideal) S_ .f32 0x00000000#32) reducesTo_S131072x256_S131072_d1 h_S_) (ix2 r z)
      = ∑ d : Fin 256, Ideal.div (X (ix2 r d)) (NX (ix2 r (0 : Fin 1))) * Ideal.div (Y (ix2 r d)) (NY (ix2 r (0 : Fin 1))) := by
  rw [col_apply, rowsum_apply]
  refine Finset.sum_congr rfl fun d _ => ?_
  rw [mulf_apply, hostDivf_apply, hostDivf_apply, colrow_apply, colrow_apply]

/-- The clipped norm of source row e. -/
theorem v63_row (x0 : FVec Ideal S65536x256 .f32) (x1 : IVec S2x131072 32) (e : Fin 131072) (z : Fin 1) :
    val_main_v63 (F := Ideal) x0 x1 (ix2 e z) = EdgeNet.norm (EdgeNet.row (val_main_v8 (F := Ideal) x0 x1) e) := by
  unfold val_main_v63 val_main_v62 val_main_v61 val_main_cst val_main_call8_v2 val_main_call8_v1 val_main_call8_cst val_main_call8_v0
  generalize val_main_v8 (F := Ideal) x0 x1 = xs
  exact norm_apply xs e z

/-- The clipped norm of destination row e. -/
theorem v66_row (x0 : FVec Ideal S65536x256 .f32) (x1 : IVec S2x131072 32) (e : Fin 131072) (z : Fin 1) :
    val_main_v66 (F := Ideal) x0 x1 (ix2 e z) = EdgeNet.norm (EdgeNet.row (val_main_v17 (F := Ideal) x0 x1) e) := by
  unfold val_main_v66 val_main_v65 val_main_v64 val_main_cst_3 val_main_call9_v2 val_main_call9_v1 val_main_call9_cst val_main_call9_v0
  generalize val_main_v17 (F := Ideal) x0 x1 = ys
  exact norm_apply ys e z

/-- The cosine of source row e and destination row e. -/
theorem v73_row (x0 : FVec Ideal S65536x256 .f32) (x1 : IVec S2x131072 32) (e : Fin 131072) (z : Fin 1) :
    val_main_v73 (F := Ideal) x0 x1 (ix2 e z)
      = EdgeNet.cosine (EdgeNet.row (val_main_v8 (F := Ideal) x0 x1) e) (EdgeNet.row (val_main_v17 (F := Ideal) x0 x1) e) := by
  unfold val_main_v73 val_main_v72 val_main_cst_4 val_main_v71 val_main_v70 val_main_v69 val_main_v68 val_main_v67
  rw [cosine_apply, v63_row, v66_row]
  rfl

/-- The second perceptron at (e, j): the perceptron on row e of the destination rows. -/
theorem v37_row (x0 : FVec Ideal S65536x256 .f32) (x1 : IVec S2x131072 32)
    (x7 : FVec Ideal S256x256 .f32) (x8 : FVec Ideal S256 .f32) (x9 : FVec Ideal S256x128 .f32) (x10 : FVec Ideal S128 .f32)
    (e : Fin 131072) (j : Fin 128) :
    val_main_v37 (F := Ideal) x0 x1 x7 x8 x9 x10 (ix2 e j)
      = EdgeNet.mlp (EdgeNet.row (val_main_v17 (F := Ideal) x0 x1) e) x7 x8 x9 x10 j := by
  unfold val_main_v37 val_main_v36 val_main_v35 val_main_v34 val_main_v33 val_main_v32 val_main_v31 val_main_v30 val_main_v29
    val_main_v28 val_main_call3_v0 val_main_call3_cst val_main_call2_v0 val_main_call2_cst
  generalize val_main_v17 (F := Ideal) x0 x1 = ys
  exact mlp_apply (M := 131072) _ ⟨rfl, rfl, rfl, rfl, rfl, rfl⟩ _ ⟨rfl, rfl, rfl, rfl, rfl, rfl⟩ _ _ _ _ _ _ ys x7 x8 x9 x10 e j

/-- The third perceptron at (e, j): the perceptron on the difference of the two rows. -/
theorem v48_row (x0 : FVec Ideal S65536x256 .f32) (x1 : IVec S2x131072 32)
    (x11 : FVec Ideal S256x256 .f32) (x12 : FVec Ideal S256 .f32) (x13 : FVec Ideal S256x128 .f32) (x14 : FVec Ideal S128 .f32)
    (e : Fin 131072) (j : Fin 128) :
    val_main_v48 (F := Ideal) x0 x1 x11 x12 x13 x14 (ix2 e j)
      = EdgeNet.mlp (fun d => EdgeNet.row (val_main_v8 (F := Ideal) x0 x1) e d - EdgeNet.row (val_main_v17 (F := Ideal) x0 x1) e d)
          x11 x12 x13 x14 j := by
  unfold val_main_v48 val_main_v47 val_main_v46 val_main_v45 val_main_v44 val_main_v43 val_main_v42 val_main_v41 val_main_v40
    val_main_v39 val_main_v38 val_main_call5_v0 val_main_call5_cst val_main_call4_v0 val_main_call4_cst
  generalize val_main_v8 (F := Ideal) x0 x1 = xs
  generalize val_main_v17 (F := Ideal) x0 x1 = ys
  exact mlp_apply (M := 131072) _ ⟨rfl, rfl, rfl, rfl, rfl, rfl⟩ _ ⟨rfl, rfl, rfl, rfl, rfl, rfl⟩ _ _ _ _ _ _ (subf xs ys) x11 x12 x13 x14 e j

/-- The fourth perceptron at (e, j): the perceptron on the entrywise product of the two rows. -/
theorem v59_row (x0 : FVec Ideal S65536x256 .f32) (x1 : IVec S2x131072 32)
    (x15 : FVec Ideal S256x256 .f32) (x16 : FVec Ideal S256 .f32) (x17 : FVec Ideal S256x128 .f32) (x18 : FVec Ideal S128 .f32)
    (e : Fin 131072) (j : Fin 128) :
    val_main_v59 (F := Ideal) x0 x1 x15 x16 x17 x18 (ix2 e j)
      = EdgeNet.mlp (fun d => EdgeNet.row (val_main_v8 (F := Ideal) x0 x1) e d * EdgeNet.row (val_main_v17 (F := Ideal) x0 x1) e d)
          x15 x16 x17 x18 j := by
  unfold val_main_v59 val_main_v58 val_main_v57 val_main_v56 val_main_v55 val_main_v54 val_main_v53 val_main_v52 val_main_v51
    val_main_v50 val_main_v49 val_main_call7_v0 val_main_call7_cst val_main_call6_v0 val_main_call6_cst
  generalize val_main_v8 (F := Ideal) x0 x1 = xs
  generalize val_main_v17 (F := Ideal) x0 x1 = ys
  exact mlp_apply (M := 131072) _ ⟨rfl, rfl, rfl, rfl, rfl, rfl⟩ _ ⟨rfl, rfl, rfl, rfl, rfl, rfl⟩ _ _ _ _ _ _ (mulf xs ys) x15 x16 x17 x18 e j

/-- Four arrays of 128 columns joined along the columns, at (e, c): the array whose span holds c. -/
theorem concat4_apply {α : Type} (A B C D : S131072x128.Idx → α) (e : Fin 131072) (c : Nat) (hc : c < 512) :
    concatenate S131072x512 1 [⟨S131072x128, A⟩, ⟨S131072x128, B⟩, ⟨S131072x128, C⟩, ⟨S131072x128, D⟩]
        concatenates_S131072x128_S131072x128_S131072x128_S131072x128_S131072x512_d1 (ix2 e (⟨c, hc⟩ : Fin 512))
      = if h1 : c < 128 then A (ix2 e (⟨c, h1⟩ : Fin 128))
        else if h2 : c < 256 then B (ix2 e (⟨c - 128, by omega⟩ : Fin 128))
        else if h3 : c < 384 then C (ix2 e (⟨c - 256, by omega⟩ : Fin 128))
        else D (ix2 e (⟨c - 384, by omega⟩ : Fin 128)) := by
  have hi : ∀ (q : Fin 128) (b : Fin S131072x128.rank), b.cast (rfl : S131072x128.rank = S131072x512.rank) ≠ 1 →
      ((ix2 e q : S131072x128.Idx) b).val = ((ix2 e (⟨c, hc⟩ : Fin 512) : S131072x512.Idx) (b.cast rfl)).val := fun q b hb => by
    match b, hb with
    | ⟨0, _⟩, _ => rfl
    | ⟨1, _⟩, hb => exact absurd (Fin.ext rfl) hb
  by_cases h1 : c < 128
  · rw [dif_pos h1]
    exact concatenate_apply_piece (t := S131072x512) 1 [⟨S131072x128, A⟩, ⟨S131072x128, B⟩, ⟨S131072x128, C⟩, ⟨S131072x128, D⟩]
      concatenates_S131072x128_S131072x128_S131072x128_S131072x128_S131072x512_d1 (ix2 e (⟨c, hc⟩ : Fin 512)) 0 (by simp) S131072x128 A rfl rfl 0 rfl (ix2 e ⟨c, h1⟩) (hi _)
      (by show 0 + c = c; omega)
  rw [dif_neg h1]
  by_cases h2 : c < 256
  · rw [dif_pos h2]
    exact concatenate_apply_piece (t := S131072x512) 1 [⟨S131072x128, A⟩, ⟨S131072x128, B⟩, ⟨S131072x128, C⟩, ⟨S131072x128, D⟩]
      concatenates_S131072x128_S131072x128_S131072x128_S131072x128_S131072x512_d1 (ix2 e (⟨c, hc⟩ : Fin 512)) 1 (by simp) S131072x128 B rfl rfl 128 rfl (ix2 e ⟨c - 128, by omega⟩) (hi _)
      (by show 128 + (c - 128) = c; omega)
  rw [dif_neg h2]
  by_cases h3 : c < 384
  · rw [dif_pos h3]
    exact concatenate_apply_piece (t := S131072x512) 1 [⟨S131072x128, A⟩, ⟨S131072x128, B⟩, ⟨S131072x128, C⟩, ⟨S131072x128, D⟩]
      concatenates_S131072x128_S131072x128_S131072x128_S131072x128_S131072x512_d1 (ix2 e (⟨c, hc⟩ : Fin 512)) 2 (by simp) S131072x128 C rfl rfl 256 rfl (ix2 e ⟨c - 256, by omega⟩) (hi _)
      (by show 256 + (c - 256) = c; omega)
  rw [dif_neg h3]
  exact concatenate_apply_piece (t := S131072x512) 1 [⟨S131072x128, A⟩, ⟨S131072x128, B⟩, ⟨S131072x128, C⟩, ⟨S131072x128, D⟩]
      concatenates_S131072x128_S131072x128_S131072x128_S131072x128_S131072x512_d1 (ix2 e (⟨c, hc⟩ : Fin 512)) 3 (by simp) S131072x128 D rfl rfl 384 rfl (ix2 e ⟨c - 384, by omega⟩) (hi _)
    (by show 384 + (c - 384) = c; omega)

/-- 512, 1 and 32 columns joined along the columns, at (e, k): the array whose span holds k. -/
theorem concat3_apply {α : Type} (A : S131072x512.Idx → α) (B : S131072x1.Idx → α) (C : S131072x32.Idx → α)
    (e : Fin 131072) (k : Fin 545) :
    concatenate S131072x545 1 [⟨S131072x512, A⟩, ⟨S131072x1, B⟩, ⟨S131072x32, C⟩]
        concatenates_S131072x512_S131072x1_S131072x32_S131072x545_d1 (ix2 e k)
      = if h1 : k.val < 512 then A (ix2 e (⟨k.val, h1⟩ : Fin 512))
        else if h2 : k.val < 513 then B (ix2 e (0 : Fin 1))
        else C (ix2 e (⟨k.val - 513, by have := k.isLt; omega⟩ : Fin 32)) := by
  by_cases h1 : k.val < 512
  · rw [dif_pos h1]
    refine concatenate_apply_piece (t := S131072x545) 1 [⟨S131072x512, A⟩, ⟨S131072x1, B⟩, ⟨S131072x32, C⟩]
      concatenates_S131072x512_S131072x1_S131072x32_S131072x545_d1 (ix2 e k) 0 (by simp) S131072x512 A rfl rfl 0 rfl (ix2 e ⟨k.val, h1⟩) (fun b hb => ?_)
      (by show 0 + k.val = k.val; omega)
    match b, hb with
    | ⟨0, _⟩, _ => rfl
    | ⟨1, _⟩, hb => exact absurd (Fin.ext rfl) hb
  rw [dif_neg h1]
  by_cases h2 : k.val < 513
  · rw [dif_pos h2]
    refine concatenate_apply_piece (t := S131072x545) 1 [⟨S131072x512, A⟩, ⟨S131072x1, B⟩, ⟨S131072x32, C⟩]
      concatenates_S131072x512_S131072x1_S131072x32_S131072x545_d1 (ix2 e k) 1 (by simp) S131072x1 B rfl rfl 512 rfl (ix2 e (0 : Fin 1)) (fun b hb => ?_)
      (by show 512 + 0 = k.val; omega)
    match b, hb with
    | ⟨0, _⟩, _ => rfl
    | ⟨1, _⟩, hb => exact absurd (Fin.ext rfl) hb
  rw [dif_neg h2]
  refine concatenate_apply_piece (t := S131072x545) 1 [⟨S131072x512, A⟩, ⟨S131072x1, B⟩, ⟨S131072x32, C⟩]
      concatenates_S131072x512_S131072x1_S131072x32_S131072x545_d1 (ix2 e k) 2 (by simp) S131072x32 C rfl rfl 513 rfl (ix2 e ⟨k.val - 513, by have := k.isLt; omega⟩)
    (fun b hb => ?_) (by show 513 + (k.val - 513) = k.val; omega)
  match b, hb with
  | ⟨0, _⟩, _ => rfl
  | ⟨1, _⟩, hb => exact absurd (Fin.ext rfl) hb

/-- The four perceptrons' outputs joined, at (e, c): the perceptron whose span of 128 columns holds c. -/
theorem v60_row (x0 : FVec Ideal S65536x256 .f32) (x1 : IVec S2x131072 32)
    (x3 : FVec Ideal S256x256 .f32) (x4 : FVec Ideal S256 .f32) (x5 : FVec Ideal S256x128 .f32) (x6 : FVec Ideal S128 .f32)
    (x7 : FVec Ideal S256x256 .f32) (x8 : FVec Ideal S256 .f32) (x9 : FVec Ideal S256x128 .f32) (x10 : FVec Ideal S128 .f32)
    (x11 : FVec Ideal S256x256 .f32) (x12 : FVec Ideal S256 .f32) (x13 : FVec Ideal S256x128 .f32) (x14 : FVec Ideal S128 .f32)
    (x15 : FVec Ideal S256x256 .f32) (x16 : FVec Ideal S256 .f32) (x17 : FVec Ideal S256x128 .f32) (x18 : FVec Ideal S128 .f32)
    (e : Fin 131072) (c : Nat) (hc : c < 512) :
    val_main_v60 (F := Ideal) x0 x1 x3 x4 x5 x6 x7 x8 x9 x10 x11 x12 x13 x14 x15 x16 x17 x18 (ix2 e (⟨c, hc⟩ : Fin 512))
      = if h1 : c < 128 then EdgeNet.mlp (EdgeNet.row (val_main_v8 (F := Ideal) x0 x1) e) x3 x4 x5 x6 ⟨c, h1⟩
        else if h2 : c < 256 then EdgeNet.mlp (EdgeNet.row (val_main_v17 (F := Ideal) x0 x1) e) x7 x8 x9 x10 ⟨c - 128, by omega⟩
        else if h3 : c < 384 then
          EdgeNet.mlp (fun d => EdgeNet.row (val_main_v8 (F := Ideal) x0 x1) e d - EdgeNet.row (val_main_v17 (F := Ideal) x0 x1) e d)
            x11 x12 x13 x14 ⟨c - 256, by omega⟩
        else
          EdgeNet.mlp (fun d => EdgeNet.row (val_main_v8 (F := Ideal) x0 x1) e d * EdgeNet.row (val_main_v17 (F := Ideal) x0 x1) e d)
            x15 x16 x17 x18 ⟨c - 384, by omega⟩ := by
  unfold val_main_v60
  rw [concat4_apply]
  simp only [v27_row, v37_row, v48_row, v59_row]

/-- The joined features at (e, k): feature k of the edge network on row e. -/
theorem v74_row (x0 : FVec Ideal S65536x256 .f32) (x1 : IVec S2x131072 32) (x2 : FVec Ideal S131072x32 .f32)
    (x3 : FVec Ideal S256x256 .f32) (x4 : FVec Ideal S256 .f32) (x5 : FVec Ideal S256x128 .f32) (x6 : FVec Ideal S128 .f32)
    (x7 : FVec Ideal S256x256 .f32) (x8 : FVec Ideal S256 .f32) (x9 : FVec Ideal S256x128 .f32) (x10 : FVec Ideal S128 .f32)
    (x11 : FVec Ideal S256x256 .f32) (x12 : FVec Ideal S256 .f32) (x13 : FVec Ideal S256x128 .f32) (x14 : FVec Ideal S128 .f32)
    (x15 : FVec Ideal S256x256 .f32) (x16 : FVec Ideal S256 .f32) (x17 : FVec Ideal S256x128 .f32) (x18 : FVec Ideal S128 .f32)
    (x19 : FVec Ideal S545x128 .f32) (x20 : FVec Ideal S128 .f32) (e : Fin 131072) (k : Fin 545) :
    val_main_v74 (F := Ideal) x0 x1 x2 x3 x4 x5 x6 x7 x8 x9 x10 x11 x12 x13 x14 x15 x16 x17 x18 (ix2 e k)
      = EdgeNet.feat (params x3 x4 x5 x6 x7 x8 x9 x10 x11 x12 x13 x14 x15 x16 x17 x18 x19 x20)
          (EdgeNet.row (val_main_v8 (F := Ideal) x0 x1) e) (EdgeNet.row (val_main_v17 (F := Ideal) x0 x1) e) (EdgeNet.row x2 e) k := by
  unfold val_main_v74
  rw [concat3_apply]
  unfold EdgeNet.feat params
  by_cases h1 : k.val < 128
  · rw [dif_pos (show k.val < 512 by omega), v60_row, dif_pos h1, dif_pos h1]
  by_cases h2 : k.val < 256
  · rw [dif_pos (show k.val < 512 by omega), v60_row, dif_neg h1, dif_pos h2, dif_neg h1, dif_pos h2]
  by_cases h3 : k.val < 384
  · rw [dif_pos (show k.val < 512 by omega), v60_row, dif_neg h1, dif_neg h2, dif_pos h3, dif_neg h1, dif_neg h2, dif_pos h3]
  by_cases h4 : k.val < 512
  · rw [dif_pos h4, v60_row, dif_neg h1, dif_neg h2, dif_neg h3, dif_neg h1, dif_neg h2, dif_neg h3, dif_pos h4]
  by_cases h5 : k.val < 513
  · rw [dif_neg h4, dif_pos h5, v73_row, dif_neg h1, dif_neg h2, dif_neg h3, dif_neg h4, dif_pos h5]
  rw [dif_neg h4, dif_neg h5, dif_neg h1, dif_neg h2, dif_neg h3, dif_neg h4, dif_neg h5]
  rfl

/-- Entry (e, o) of the reference's result is the edge network on row `e` of the gathered arrays and the attributes. -/
theorem result_row (x0 : FVec Ideal S65536x256 .f32) (x1 : IVec S2x131072 32) (x2 : FVec Ideal S131072x32 .f32)
    (x3 : FVec Ideal S256x256 .f32) (x4 : FVec Ideal S256 .f32) (x5 : FVec Ideal S256x128 .f32) (x6 : FVec Ideal S128 .f32)
    (x7 : FVec Ideal S256x256 .f32) (x8 : FVec Ideal S256 .f32) (x9 : FVec Ideal S256x128 .f32) (x10 : FVec Ideal S128 .f32)
    (x11 : FVec Ideal S256x256 .f32) (x12 : FVec Ideal S256 .f32) (x13 : FVec Ideal S256x128 .f32) (x14 : FVec Ideal S128 .f32)
    (x15 : FVec Ideal S256x256 .f32) (x16 : FVec Ideal S256 .f32) (x17 : FVec Ideal S256x128 .f32) (x18 : FVec Ideal S128 .f32)
    (x19 : FVec Ideal S545x128 .f32) (x20 : FVec Ideal S128 .f32) (e : Fin 131072) (o : Fin 128) :
    val_main_v79 (F := Ideal) x0 x1 x2 x3 x4 x5 x6 x7 x8 x9 x10 x11 x12 x13 x14 x15 x16 x17 x18 x19 x20 (ix2 e o)
      = EdgeNet.out (params x3 x4 x5 x6 x7 x8 x9 x10 x11 x12 x13 x14 x15 x16 x17 x18 x19 x20)
          (EdgeNet.row (val_main_v8 (F := Ideal) x0 x1) e) (EdgeNet.row (val_main_v17 (F := Ideal) x0 x1) e) (EdgeNet.row x2 e) o := by
  unfold val_main_v79 val_main_v78 val_main_v77 val_main_v76 val_main_v75
  rw [hostTanh_apply, lin_apply (M := 131072) _ ⟨rfl, rfl, rfl, rfl, rfl, rfl⟩]
  unfold EdgeNet.out
  refine congrArg Ideal.tanh (congrArg (fun h => EdgeNet.lin h x19 x20 o) (funext fun k => ?_))
  exact v74_row x0 x1 x2 x3 x4 x5 x6 x7 x8 x9 x10 x11 x12 x13 x14 x15 x16 x17 x18 x19 x20 e k

end Cert.ReferenceIdeal.Rows

end
-- ==== Proof.lean ====
/-
  The kernel computes, for every edge of a graph, a small network of its two end nodes' feature rows and its attribute
  row; the reference computes the same network with whole-array operations. Both gather the end nodes' rows by the edge's
  two indices: the kernel's gather keeps a row only where the index, wrapped once by the number of nodes, lies inside the
  node table, and the reference clamps instead; under the stated domain of the indices, [-65536, 65536), the two agree.
  After the gather every operation on either side is row-wise, so entry (e, o) of either result is one function of row e
  of the gathered arrays, of row e of the attributes and of the weights (Proof/Spec.lean). The kernel's side is
  Proof/KernelRows.lean (a row of a block), Proof/KernelBlocks.lean and Proof/KernelArray.lean (the blocks tile the
  array) and Proof/KernelInputs.lean (what the region finds in its arrays); the reference's side is Proof/RefRows.lean.
  The frames are the generated ones; the idealization rewrote nothing, so it preserves trivially.
-/
import proofs.«419241_j47699906789820_1_alg».proof.Defs
import proofs.«419241_j47699906789820_1_alg».proof.Proof.Gen.Kernel
import proofs.«419241_j47699906789820_1_alg».proof.Proof.Gen.Kernel.Skeleton
import proofs.«419241_j47699906789820_1_alg».proof.Proof.Gen.Kernel.Launch
import proofs.«419241_j47699906789820_1_alg».proof.Proof.Gen.Kernel.Points
import proofs.«419241_j47699906789820_1_alg».proof.Proof.Gen.Kernel.Frame
import proofs.«419241_j47699906789820_1_alg».proof.Proof.Gen.KernelIdeal
import proofs.«419241_j47699906789820_1_alg».proof.Proof.Gen.KernelIdeal.Skeleton
import proofs.«419241_j47699906789820_1_alg».proof.Proof.Gen.KernelIdeal.Launch
import proofs.«419241_j47699906789820_1_alg».proof.Proof.Gen.KernelIdeal.Points
import proofs.«419241_j47699906789820_1_alg».proof.Proof.Gen.KernelIdeal.Frame
import proofs.«419241_j47699906789820_1_alg».proof.Proof.Gen.ReferenceIdeal
import proofs.«419241_j47699906789820_1_alg».proof.Proof.Gen.Pre_finite_inputs
import proofs.«419241_j47699906789820_1_alg».proof.Proof.Gen.KernelIdeal.Value
import proofs.«419241_j47699906789820_1_alg».proof.Proof.Gen.ReferenceIdeal.Run
import proofs.«419241_j47699906789820_1_alg».proof.Proof.Gen.ReferenceIdeal.Read
import proofs.«419241_j47699906789820_1_alg».proof.Proof.KernelArray
import proofs.«419241_j47699906789820_1_alg».proof.Proof.KernelInputs
import proofs.«419241_j47699906789820_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames and the idealization -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The two results are one function of the arguments -/

section
open Cert.KernelIdeal Cert.KernelIdeal.Gen

/-- Entry (e, o) of the kernel's array-wide function, over the ARGUMENTS: under the stated domain the arrays the region
    finds are the reference's gathered rows, the attributes and the weights themselves. -/
theorem G_entry (m : (ℓ : Loc nD τ sig) → Buf (Elt Ideal) ℓ) (hpre : Cert.Pre_KernelIdeal m) (c : Dev nD)
    (e : Fin 131072) (o : Fin 128) :
    Cert.KernelIdeal.Whole.G m c (ix2 e o)
      = EdgeNet.out
          (Cert.KernelIdeal.Rows.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
          (EdgeNet.row (Cert.ReferenceIdeal.Read.val_main_v8 (F := Ideal) (m ((c : Thread nD τ).loc main_arg0)) (m ((c : Thread nD τ).loc main_arg1))) e)
          (EdgeNet.row (Cert.ReferenceIdeal.Read.val_main_v17 (F := Ideal) (m ((c : Thread nD τ).loc main_arg0)) (m ((c : Thread nD τ).loc main_arg1))) e)
          (EdgeNet.row (m ((c : Thread nD τ).loc main_arg2)) e) o :=
  (Cert.KernelIdeal.Whole.G_apply m c e o).trans
    (Cert.KernelIdeal.Whole.out_congr
      (Cert.KernelIdeal.Whole.params_congr
        (Cert.KernelIdeal.Inputs.weight_W1a m c) (V_main_arg4 m c) (Cert.KernelIdeal.Inputs.weight_W1b m c) (V_main_arg6 m c)
        (Cert.KernelIdeal.Inputs.weight_W2a m c) (V_main_arg8 m c) (Cert.KernelIdeal.Inputs.weight_W2b m c) (V_main_arg10 m c)
        (Cert.KernelIdeal.Inputs.weight_W3a m c) (V_main_arg12 m c) (Cert.KernelIdeal.Inputs.weight_W3b m c) (V_main_arg14 m c)
        (Cert.KernelIdeal.Inputs.weight_W4a m c) (V_main_arg16 m c) (Cert.KernelIdeal.Inputs.weight_W4b m c) (V_main_arg18 m c)
        (Cert.KernelIdeal.Inputs.weight_Wf m c) (V_main_arg20 m c))
      (congrArg (fun A : EdgeNet.Mat 131072 256 => EdgeNet.row A e) (Cert.KernelIdeal.Inputs.src_rows m hpre c))
      (congrArg (fun A : EdgeNet.Mat 131072 256 => EdgeNet.row A e) (Cert.KernelIdeal.Inputs.dst_rows m hpre c))
      (congrArg (fun A : EdgeNet.Mat 131072 32 => EdgeNet.row A e) (V_main_arg2 m c)) o)

end

/-- At the ideal values the kernel's result array ends at the array-wide edge network of the arrays its region finds (the
    blocks tile the array), the reference's at the same network of its gathered rows; the arguments agree and, under the
    stated domain of the edge indices, so do the gathered rows. -/
theorem algebraic : Cert.algebraic_KernelIdeal_ReferenceIdeal := by
  intro m ρ m' ρ' hpre hagree
  refine ⟨fun c => Cert.KernelIdeal.Whole.G m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v79_eq]
    funext j
    obtain ⟨e, o, rfl⟩ : ∃ (e : Fin 131072) (o : Fin 128), j = ix2 e o := ⟨j 0, j 1, eq_ix2 j⟩
    show _ = Cert.KernelIdeal.Whole.G m c (ix2 e o)
    rw [Cert.ReferenceIdeal.Rows.result_row, G_entry m hpre c e o,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
